-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000 : Shape := ⟨1, ![2400000]⟩
abbrev S150000x64 : Shape := ⟨2, ![150000, 64]⟩
abbrev S64x64 : Shape := ⟨2, ![64, 64]⟩
abbrev S1x64 : Shape := ⟨2, ![1, 64]⟩
abbrev S2048 : Shape := ⟨1, ![2048]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg9 : FVec F S1x64 .f32) (main_arg10 : FVec F S64x64 .f32) (main_arg11 : FVec F S1x64 .f32) (main_v33 : IVec S_ 1) : IVec S_ 1 :=
  let main_v34 : FVec F S1x64 .f32 := Host.absf main_arg9
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S1x64 .f32 := Host.absf main_arg11
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  main_v48

def fn_part1 {F : FTy → Type} [FloatOps F] (main_arg6 : FVec F S64x64 .f32) (main_arg7 : FVec F S1x64 .f32) (main_arg8 : FVec F S64x64 .f32) (main_arg9 : FVec F S1x64 .f32) (main_arg10 : FVec F S64x64 .f32) (main_arg11 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S1x64 .f32 := Host.absf main_arg7
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : IVec S2400000 32) (main_arg1 : IVec S2400000 32) (main_arg2 : FVec F S2400000 .f32) (main_arg3 : FVec F S150000x64 .f32) (main_arg4 : FVec F S64x64 .f32) (main_arg5 : FVec F S1x64 .f32) (main_arg6 : FVec F S64x64 .f32) (main_arg7 : FVec F S1x64 .f32) (main_arg8 : FVec F S64x64 .f32) (main_arg9 : FVec F S1x64 .f32) (main_arg10 : FVec F S64x64 .f32) (main_arg11 : FVec F S1x64 .f32) (main_arg12 : IVec S2048 32) (main_arg13 : IVec S2048 32) : IVec S_ 1 :=
  let main_v0 : FVec F S2400000 .f32 := Host.absf main_arg2
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S150000x64 .f32 := Host.absf main_arg3
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_arg7 main_arg8 main_arg9 main_arg10 main_arg11 main_v13 main_v16
-- ==== Kernel.lean ====
abbrev S2400000 : Shape := ⟨1, ![2400000]⟩
abbrev S150000x64 : Shape := ⟨2, ![150000, 64]⟩
abbrev S64x64 : Shape := ⟨2, ![64, 64]⟩
abbrev S1x64 : Shape := ⟨2, ![1, 64]⟩
abbrev S2048 : Shape := ⟨1, ![2048]⟩
abbrev S2400000x1 : Shape := ⟨2, ![2400000, 1]⟩
abbrev S_ : Shape := ⟨0, ![]⟩
abbrev S2400000x64 : Shape := ⟨2, ![2400000, 64]⟩
abbrev S3000x64 : Shape := ⟨2, ![3000, 64]⟩
abbrev S3000 : Shape := ⟨1, ![3000]⟩
abbrev S3000x1 : Shape := ⟨2, ![3000, 1]⟩
abbrev S150000x192 : Shape := ⟨2, ![150000, 192]⟩
abbrev S2048x1 : Shape := ⟨2, ![2048, 1]⟩
abbrev S2048x192 : Shape := ⟨2, ![2048, 192]⟩

abbrev nBuf : Space → Nat
  | .hbm => 73
  | .vmem => 20
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S150000x64, .f32⟩
  | .hbm, ⟨4, _⟩ => ⟨S64x64, .f32⟩
  | .hbm, ⟨5, _⟩ => ⟨S1x64, .f32⟩
  | .hbm, ⟨6, _⟩ => ⟨S64x64, .f32⟩
  | .hbm, ⟨7, _⟩ => ⟨S1x64, .f32⟩
  | .hbm, ⟨8, _⟩ => ⟨S64x64, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S2048, .i32⟩
  | .hbm, ⟨13, _⟩ => ⟨S2048, .i32⟩
  | .hbm, ⟨14, _⟩ => ⟨S2400000x1, .f32⟩
  | .hbm, ⟨15, _⟩ => ⟨S_, .i32⟩
  | .hbm, ⟨16, _⟩ => ⟨S2400000, .i32⟩
  | .hbm, ⟨17, _⟩ => ⟨S2400000, .i1⟩
  | .hbm, ⟨18, _⟩ => ⟨S_, .i32⟩
  | .hbm, ⟨19, _⟩ => ⟨S2400000, .i32⟩
  | .hbm, ⟨20, _⟩ => ⟨S2400000, .i32⟩
  | .hbm, ⟨21, _⟩ => ⟨S2400000, .i32⟩
  | .hbm, ⟨22, _⟩ => ⟨S2400000x1, .i32⟩
  | .hbm, ⟨23, _⟩ => ⟨S2400000x64, .f32⟩
  | .hbm, ⟨24, _⟩ => ⟨S2400000x64, .f32⟩
  | .hbm, ⟨25, _⟩ => ⟨S2400000x64, .f32⟩
  | .hbm, ⟨26, _⟩ => ⟨S_, .f32⟩
  | .hbm, ⟨27, _⟩ => ⟨S150000x64, .f32⟩
  | .hbm, ⟨28, _⟩ => ⟨S2400000x1, .i32⟩
  | .hbm, ⟨29, _⟩ => ⟨S150000x64, .f32⟩
  | .hbm, ⟨30, _⟩ => ⟨S150000x64, .f32⟩
  | .hbm, ⟨31, _⟩ => ⟨S2400000x1, .f32⟩
  | .hbm, ⟨32, _⟩ => ⟨S_, .i32⟩
  | .hbm, ⟨33, _⟩ => ⟨S2400000, .i32⟩
  | .hbm, ⟨34, _⟩ => ⟨S2400000, .i1⟩
  | .hbm, ⟨35, _⟩ => ⟨S_, .i32⟩
  | .hbm, ⟨36, _⟩ => ⟨S2400000, .i32⟩
  | .hbm, ⟨37, _⟩ => ⟨S2400000, .i32⟩
  | .hbm, ⟨38, _⟩ => ⟨S2400000, .i32⟩
  | .hbm, ⟨39, _⟩ => ⟨S2400000x1, .i32⟩
  | .hbm, ⟨40, _⟩ => ⟨S2400000x64, .f32⟩
  | .hbm, ⟨41, _⟩ => ⟨S2400000x64, .f32⟩
  | .hbm, ⟨42, _⟩ => ⟨S2400000x64, .f32⟩
  | .hbm, ⟨43, _⟩ => ⟨S_, .f32⟩
  | .hbm, ⟨44, _⟩ => ⟨S150000x64, .f32⟩
  | .hbm, ⟨45, _⟩ => ⟨S2400000x1, .i32⟩
  | .hbm, ⟨46, _⟩ => ⟨S150000x64, .f32⟩
  | .hbm, ⟨47, _⟩ => ⟨S150000x64, .f32⟩
  | .hbm, ⟨48, _⟩ => ⟨S150000x192, .f32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048x192, .f32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S2048x192, .f32⟩
  | .hbm, ⟨70, _⟩ => ⟨S2048x192, .f32⟩
  | .hbm, ⟨71, _⟩ => ⟨S_, .f32⟩
  | .hbm, ⟨72, _⟩ => ⟨S2048, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S3000x64, .f32⟩
  | .local _ .vmem, ⟨19, _⟩ => ⟨S3000x64, .f32⟩
  | _, _ => ⟨S2400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S1x64_S1x64_0_0 : ∀ a, (![0, 0] : Fin 2 → Nat) a + S1x64.size a ≤ S1x64.size a
  h_S1x64 : 0 < S1x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  concatenates_S150000x64_S150000x64_S150000x64_S150000x192_d1 : Shape.Concatenates [S150000x64, S150000x64, S150000x64] S150000x192 1
  bcast_S_S2048 : S_.BroadcastsInDim S2048 (![] : Fin 0 → Fin S2048.rank)
  bcast_S2048_S2048x1_0 : S2048.BroadcastsInDim S2048x1 (![0] : Fin 1 → Fin S2048x1.rank)
  reducesTo_S2048x192_S2048_d1 : S2048x192.ReducesTo [1] S2048
  h_S_ : 0 < S_.numel
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S3000x64_S64x64_S3000x64_1_0_0_1_n_n_wf : DotDims.WF S3000x64 S64x64 S3000x64 [1] [0] [0] [1] [] []
  gather_S150000x192_S2048x1_S2048x192_1_0_n_n_0_1_1192_wf : GatherDims.WF S150000x192 S2048x1 S2048x192 [1] [0] [] [0] [] 1 ![1, 192]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S150000x64.size a
  hwx0_6 : ∀ i : grid0.Coords, EltTy.bits .f32 = 32 ∨ (Rect.block (s := S150000x64) S3000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S150000x64.size a
  hwx1_6 : ∀ i : grid1.Coords, EltTy.bits .f32 = 32 ∨ (Rect.block (s := S150000x64) S3000x64.size (cc1_transform_6 i) (hinb1_6 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S150000x192_S2048x1_S2048x192_1_0_n_n_0_1_1192 : GatherDims S150000x192 S2048x1 S2048x192 where
  offsetDims := [1]
  collapsedSliceDims := [0]
  operandBatchingDims := []
  startIndicesBatchingDims := []
  startIndexMap := [0]
  indexVectorDim := 1
  sliceSizes := ![1, 192]
  wf := gather_S150000x192_S2048x1_S2048x192_1_0_n_n_0_1_1192_wf

abbrev win0_0 : Pipeline.Window sig grid0 :=
  Pipeline.Window.ofSpec (Memref.whole main_arg3) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S3000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S3000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2400000 : Shape := ⟨1, ![2400000]⟩
abbrev S150000x64 : Shape := ⟨2, ![150000, 64]⟩
abbrev S64x64 : Shape := ⟨2, ![64, 64]⟩
abbrev S1x64 : Shape := ⟨2, ![1, 64]⟩
abbrev S2048 : Shape := ⟨1, ![2048]⟩
abbrev S2400000x1 : Shape := ⟨2, ![2400000, 1]⟩
abbrev S_ : Shape := ⟨0, ![]⟩
abbrev S2400000x64 : Shape := ⟨2, ![2400000, 64]⟩
abbrev S150000 : Shape := ⟨1, ![150000]⟩
abbrev S150000x1 : Shape := ⟨2, ![150000, 1]⟩
abbrev S150000x192 : Shape := ⟨2, ![150000, 192]⟩
abbrev S2048x1 : Shape := ⟨2, ![2048, 1]⟩
abbrev S2048x192 : Shape := ⟨2, ![2048, 192]⟩

abbrev nBuf : Space → Nat
  | .hbm => 123
  | .vmem => 0
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S150000x64, .f32⟩
  | .hbm, ⟨4, _⟩ => ⟨S64x64, .f32⟩
  | .hbm, ⟨5, _⟩ => ⟨S1x64, .f32⟩
  | .hbm, ⟨6, _⟩ => ⟨S64x64, .f32⟩
  | .hbm, ⟨7, _⟩ => ⟨S1x64, .f32⟩
  | .hbm, ⟨8, _⟩ => ⟨S64x64, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S2048, .i32⟩
  | .hbm, ⟨13, _⟩ => ⟨S2048, .i32⟩
  | .hbm, ⟨14, _⟩ => ⟨S2400000x1, .f32⟩
  | .hbm, ⟨15, _⟩ => ⟨S_, .i32⟩
  | .hbm, ⟨16, _⟩ => ⟨S2400000, .i32⟩
  | .hbm, ⟨17, _⟩ => ⟨S2400000, .i1⟩
  | .hbm, ⟨18, _⟩ => ⟨S_, .i32⟩
  | .hbm, ⟨19, _⟩ => ⟨S2400000, .i32⟩
  | .hbm, ⟨20, _⟩ => ⟨S2400000, .i32⟩
  | .hbm, ⟨21, _⟩ => ⟨S2400000, .i32⟩
  | .hbm, ⟨22, _⟩ => ⟨S2400000x1, .i32⟩
  | .hbm, ⟨23, _⟩ => ⟨S2400000x64, .f32⟩
  | .hbm, ⟨24, _⟩ => ⟨S2400000x64, .f32⟩
  | .hbm, ⟨25, _⟩ => ⟨S2400000x64, .f32⟩
  | .hbm, ⟨26, _⟩ => ⟨S_, .f32⟩
  | .hbm, ⟨27, _⟩ => ⟨S150000x64, .f32⟩
  | .hbm, ⟨28, _⟩ => ⟨S2400000x1, .i32⟩
  | .hbm, ⟨29, _⟩ => ⟨S150000x64, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S150000x64, .f32⟩
  | .hbm, ⟨34, _⟩ => ⟨S150000x64, .f32⟩
  | .hbm, ⟨35, _⟩ => ⟨S150000x64, .f32⟩
  | .hbm, ⟨36, _⟩ => ⟨S150000x64, .f32⟩
  | .hbm, ⟨37, _⟩ => ⟨S150000x64, .f32⟩
  | .hbm, ⟨38, _⟩ => ⟨S_, .f32⟩
  | .hbm, ⟨39, _⟩ => ⟨S_, .f32⟩
  | .hbm, ⟨40, _⟩ => ⟨S150000x64, .f32⟩
  | .hbm, ⟨41, _⟩ => ⟨S150000x64, .i1⟩
  | .hbm, ⟨42, _⟩ => ⟨S_, .f32⟩
  | .hbm, ⟨43, _⟩ => ⟨S150000x64, .f32⟩
  | .hbm, ⟨44, _⟩ => ⟨S150000x64, .f32⟩
  | .hbm, ⟨45, _⟩ => ⟨S150000x64, .f32⟩
  | .hbm, ⟨46, _⟩ => ⟨S150000x64, .f32⟩
  | .hbm, ⟨47, _⟩ => ⟨S_, .f32⟩
  | .hbm, ⟨48, _⟩ => ⟨S150000, .f32⟩
  | .hbm, ⟨49, _⟩ => ⟨S150000x1, .f32⟩
  | .hbm, ⟨50, _⟩ => ⟨S150000x1, .f32⟩
  | .hbm, ⟨51, _⟩ => ⟨S_, .f32⟩
  | .hbm, ⟨52, _⟩ => ⟨S150000x1, .f32⟩
  | .hbm, ⟨53, _⟩ => ⟨S150000x1, .f32⟩
  | .hbm, ⟨54, _⟩ => ⟨S150000x64, .f32⟩
  | .hbm, ⟨55, _⟩ => ⟨S150000x64, .f32⟩
  | .hbm, ⟨56, _⟩ => ⟨S2400000x1, .f32⟩
  | .hbm, ⟨57, _⟩ => ⟨S_, .i32⟩
  | .hbm, ⟨58, _⟩ => ⟨S2400000, .i32⟩
  | .hbm, ⟨59, _⟩ => ⟨S2400000, .i1⟩
  | .hbm, ⟨60, _⟩ => ⟨S_, .i32⟩
  | .hbm, ⟨61, _⟩ => ⟨S2400000, .i32⟩
  | .hbm, ⟨62, _⟩ => ⟨S2400000, .i32⟩
  | .hbm, ⟨63, _⟩ => ⟨S2400000, .i32⟩
  | .hbm, ⟨64, _⟩ => ⟨S2400000x1, .i32⟩
  | .hbm, ⟨65, _⟩ => ⟨S2400000x64, .f32⟩
  | .hbm, ⟨66, _⟩ => ⟨S2400000x64, .f32⟩
  | .hbm, ⟨67, _⟩ => ⟨S2400000x64, .f32⟩
  | .hbm, ⟨68, _⟩ => ⟨S_, .f32⟩
  | .hbm, ⟨69, _⟩ => ⟨S150000x64, .f32⟩
  | .hbm, ⟨70, _⟩ => ⟨S2400000x1, .i32⟩
  | .hbm, ⟨71, _⟩ => ⟨S150000x64, .f32⟩
  | .hbm, ⟨72, _⟩ => ⟨S150000x64, .f32⟩
  | .hbm, ⟨73, _⟩ => ⟨S150000x64, .f32⟩
  | .hbm, ⟨74, _⟩ => ⟨S150000x64, .f32⟩
  | .hbm, ⟨75, _⟩ => ⟨S150000x64, .f32⟩
  | .hbm, ⟨76, _⟩ => ⟨S150000x64, .f32⟩
  | .hbm, ⟨77, _⟩ => ⟨S150000x64, .f32⟩
  | .hbm, ⟨78, _⟩ => ⟨S150000x64, .f32⟩
  | .hbm, ⟨79, _⟩ => ⟨S150000x64, .f32⟩
  | .hbm, ⟨80, _⟩ => ⟨S_, .f32⟩
  | .hbm, ⟨81, _⟩ => ⟨S_, .f32⟩
  | .hbm, ⟨82, _⟩ => ⟨S150000x64, .f32⟩
  | .hbm, ⟨83, _⟩ => ⟨S150000x64, .i1⟩
  | .hbm, ⟨84, _⟩ => ⟨S_, .f32⟩
  | .hbm, ⟨85, _⟩ => ⟨S150000x64, .f32⟩
  | .hbm, ⟨86, _⟩ => ⟨S150000x64, .f32⟩
  | .hbm, ⟨87, _⟩ => ⟨S150000x64, .f32⟩
  | .hbm, ⟨88, _⟩ => ⟨S150000x64, .f32⟩
  | .hbm, ⟨89, _⟩ => ⟨S_, .f32⟩
  | .hbm, ⟨90, _⟩ => ⟨S150000, .f32⟩
  | .hbm, ⟨91, _⟩ => ⟨S150000x1, .f32⟩
  | .hbm, ⟨92, _⟩ => ⟨S150000x1, .f32⟩
  | .hbm, ⟨93, _⟩ => ⟨S_, .f32⟩
  | .hbm, ⟨94, _⟩ => ⟨S150000x1, .f32⟩
  | .hbm, ⟨95, _⟩ => ⟨S150000x1, .f32⟩
  | .hbm, ⟨96, _⟩ => ⟨S150000x64, .f32⟩
  | .hbm, ⟨97, _⟩ => ⟨S150000x64, .f32⟩
  | .hbm, ⟨98, _⟩ => ⟨S150000x192, .f32⟩
  | .hbm, ⟨99, _⟩ => ⟨S_, .i32⟩
  | .hbm, ⟨100, _⟩ => ⟨S2048, .i32⟩
  | .hbm, ⟨101, _⟩ => ⟨S2048, .i1⟩
  | .hbm, ⟨102, _⟩ => ⟨S_, .i32⟩
  | .hbm, ⟨103, _⟩ => ⟨S2048, .i32⟩
  | .hbm, ⟨104, _⟩ => ⟨S2048, .i32⟩
  | .hbm, ⟨105, _⟩ => ⟨S2048, .i32⟩
  | .hbm, ⟨106, _⟩ => ⟨S2048x1, .i32⟩
  | .hbm, ⟨107, _⟩ => ⟨S2048x192, .f32⟩
  | .hbm, ⟨108, _⟩ => ⟨S_, .i32⟩
  | .hbm, ⟨109, _⟩ => ⟨S2048, .i32⟩
  | .hbm, ⟨110, _⟩ => ⟨S2048, .i32⟩
  | .hbm, ⟨111, _⟩ => ⟨S_, .i32⟩
  | .hbm, ⟨112, _⟩ => ⟨S2048, .i32⟩
  | .hbm, ⟨113, _⟩ => ⟨S2048, .i1⟩
  | .hbm, ⟨114, _⟩ => ⟨S_, .i32⟩
  | .hbm, ⟨115, _⟩ => ⟨S2048, .i32⟩
  | .hbm, ⟨116, _⟩ => ⟨S2048, .i32⟩
  | .hbm, ⟨117, _⟩ => ⟨S2048, .i32⟩
  | .hbm, ⟨118, _⟩ => ⟨S2048x1, .i32⟩
  | .hbm, ⟨119, _⟩ => ⟨S2048x192, .f32⟩
  | .hbm, ⟨120, _⟩ => ⟨S2048x192, .f32⟩
  | .hbm, ⟨121, _⟩ => ⟨S_, .f32⟩
  | .hbm, ⟨122, _⟩ => ⟨S2048, .f32⟩
  | _, _ => ⟨S2400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v51 : Ref sig .tc := ⟨.hbm, 87, rfl⟩
abbrev main_v52 : Ref sig .tc := ⟨.hbm, 88, rfl⟩
abbrev main_cst_8 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_10 : Ref sig .tc := ⟨.hbm, 99, rfl⟩
abbrev main_v61 : Ref sig .tc := ⟨.hbm, 100, rfl⟩
abbrev main_v62 : Ref sig .tc := ⟨.hbm, 101, rfl⟩
abbrev main_c_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_12 : Ref sig .tc := ⟨.hbm, 108, rfl⟩
abbrev main_v68 : Ref sig .tc := ⟨.hbm, 109, rfl⟩
abbrev main_v69 : Ref sig .tc := ⟨.hbm, 110, rfl⟩
abbrev main_c_13 : Ref sig .tc := ⟨.hbm, 111, rfl⟩
abbrev main_v70 : Ref sig .tc := ⟨.hbm, 112, rfl⟩
abbrev main_v71 : Ref sig .tc := ⟨.hbm, 113, rfl⟩
abbrev main_c_14 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_15 : Ref sig .tc := ⟨.hbm, 121, rfl⟩
abbrev main_v78 : Ref sig .tc := ⟨.hbm, 122, rfl⟩

abbrev nD : Nat := 1
abbrev τ : Topo := Topo.v7x

variable {F : FTy → Type} [FloatOps F]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  concatenates_S150000x64_S150000x64_S150000x64_S150000x192_d1 : Shape.Concatenates [S150000x64, S150000x64, S150000x64] S150000x192 1
  bcast_S_S2048 : S_.BroadcastsInDim S2048 (![] : Fin 0 → Fin S2048.rank)
  bcast_S2048_S2048x1_0 : S2048.BroadcastsInDim S2048x1 (![0] : Fin 1 → Fin S2048x1.rank)
  reducesTo_S2048x192_S2048_d1 : S2048x192.ReducesTo [1] S2048
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []
  gather_S150000x192_S2048x1_S2048x192_1_0_n_n_0_1_1192_wf : GatherDims.WF S150000x192 S2048x1 S2048x192 [1] [0] [] [0] [] 1 ![1, 192]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x192_S2048x1_S2048x192_1_0_n_n_0_1_1192 : GatherDims S150000x192 S2048x1 S2048x192 where
  offsetDims := [1]
  collapsedSliceDims := [0]
  operandBatchingDims := []
  startIndicesBatchingDims := []
  startIndexMap := [0]
  indexVectorDim := 1
  sliceSizes := ![1, 192]
  wf := gather_S150000x192_S2048x1_S2048x192_1_0_n_n_0_1_1192_wf

class Facts : Prop extends Facts₀ where

variable [Facts]
-- ==== Proof.KernelRun.lean ====
/-
  The run of the kernel program: @main is three stretches of host operations around two pipelined regions, each region
  a grid of 50 points over blocks of 3000 rows that tile its arrays. For every region, at any contents `V` of the core's
  buffers at its entry: the block of each window at a point, what the body leaves in the output window's buffer as a
  function of the six input blocks, the body's triple by symbolic execution, the pipeline's proof data and its body
  obligation. Then the buffers' contents at each boundary of @main as a fold from the launch memory (a host stretch
  applies its operations; a region leaves its output array at what its fifty write-backs assemble and everything else
  as entered), every argument read back through the fold to its launch contents, the two regions as segments over
  "every unscoped buffer at the boundary's contents", and the launch: every weakly fair execution terminates, faults
  nowhere, and ends with every unscoped buffer at the last boundary's contents. The frame claim is that run read at the
  arguments; a value claim reads it at the result. Everything here holds at any float instance.
-/
import proofs.«125295_j75127567941781_1_alg».proof.Proof.Gen.Kernel.Launch
import proofs.«125295_j75127567941781_1_alg».proof.Proof.Gen.Kernel.Skeleton
import proofs.«125295_j75127567941781_1_alg».proof.Proof.Gen.Kernel.Points
import proofs.«125295_j75127567941781_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0 of @main (pipeline 0), at the contents `V` the core's buffers hold when the region is entered -/

/-- Window `w`'s block at grid point `t`: the rectangle of its array that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the point fetches it or the
    block index has not moved since the last fetch: for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole block of each block shape: what every load and the one store of the body access. -/
abbrev rA0 : Rect S3000x64 := Rect.unit (s := S3000x64) ![0, 0] S3000x64.size inb_S3000x64_S3000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output window's buffer, as a function of the six input blocks (the embeddings, the
    aggregated neighbours, the two weights and the two biases): its one store, of the layer's value, over the whole block. -/
def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rA0, k0_pay1 (View.ld x0 rA0) (View.ld x1 rA0) (View.ld x3 rB0) (View.ld x5 rB0) (View.ld x2 rW0) (View.ld x4 rW0)⟩]

/-- The one store covers the buffer. -/
theorem cover0_6 (p0 : Vec F S3000x64 .f32) (y : S3000x64.Idx) :
    ∃ pc ∈ ([⟨rA0, p0⟩] : List (View.Piece (Elt F) S3000x64 .f32)), y ∈ pc.1.set :=
  View.cover_of_tiled [⟨rA0, p0⟩] S3000x64.size (by rfl) y

set_option maxHeartbeats 1000000 in
/-- The body on whole staging buffers, the six inputs' at contents `x0 … x5` and the output's at anything: it runs to
    the end, faults nowhere, leaves the inputs as they were and the output buffer at `out0_6` of them. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__transform_kernel i arg1 harg1 arg2 harg2 arg3 harg3 arg4 harg4 arg5 harg5 arg6 harg6 arg7 harg7) K := by
  simp only [cc0__transform_kernel_eq_skeleton]; unfold cc0__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core `c`: the arrays as the region finds them; after the body at point `t` each
    input's buffer at its block and the output's at `out0_6` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main (pipeline 1), at the contents `V` the core's buffers hold when the region is entered -/

/-- Window `w`'s block at grid point `t`: the rectangle of its array that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point, whether the point fetches it or the
    block index has not moved since the last fetch: for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole block of each block shape: what every load and the one store of the body access. -/
abbrev rA1 : Rect S3000x64 := Rect.unit (s := S3000x64) ![0, 0] S3000x64.size inb_S3000x64_S3000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output window's buffer, as a function of the six input blocks (the embeddings, the
    aggregated neighbours, the two weights and the two biases): its one store, of the layer's value, over the whole block. -/
def out1_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rA1, k1_pay1 (View.ld x0 rA1) (View.ld x1 rA1) (View.ld x3 rB1) (View.ld x5 rB1) (View.ld x2 rW1) (View.ld x4 rW1)⟩]

/-- The one store covers the buffer. -/
theorem cover1_6 (p0 : Vec F S3000x64 .f32) (y : S3000x64.Idx) :
    ∃ pc ∈ ([⟨rA1, p0⟩] : List (View.Piece (Elt F) S3000x64 .f32)), y ∈ pc.1.set :=
  View.cover_of_tiled [⟨rA1, p0⟩] S3000x64.size (by rfl) y

set_option maxHeartbeats 1000000 in
/-- The body on whole staging buffers, the six inputs' at contents `x0 … x5` and the output's at anything: it runs to
    the end, faults nowhere, leaves the inputs as they were and the output buffer at `out1_6` of them. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__transform_kernel i arg1 harg1 arg2 harg2 arg3 harg3 arg4 harg4 arg5 harg5 arg6 harg6 arg7 harg7) K := by
  simp only [cc1__transform_kernel_eq_skeleton]; unfold cc1__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block and the output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The buffers' contents at each boundary of @main -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves (an input as entered, the output's write-backs assembled),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the end of @main. -/
abbrev W5 : Dev nD → Valuation τ sig (Elt F) := fun c => StableHlo.after hostOps2 (W4 m ρ c)

/-! A host stretch leaves every buffer none of its operations writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! Every argument ends as launched: no host operation writes one, and a region reads it through an input window or
    not at all. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <| (W2_in m ρ c 0 rfl).trans <| (W1_of m ρ c main_arg3 (by decide)).trans rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <| (W2_in m ρ c 2 rfl).trans <| (W1_of m ρ c main_arg4 (by decide)).trans rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <| (W2_in m ρ c 3 rfl).trans <| (W1_of m ρ c main_arg5 (by decide)).trans rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <| (W2_in m ρ c 4 rfl).trans <| (W1_of m ρ c main_arg6 (by decide)).trans rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <| (W2_in m ρ c 5 rfl).trans <| (W1_of m ρ c main_arg7 (by decide)).trans rfl
theorem W5_main_arg8 (c : Dev nD) : W5 m ρ c (Proc.devRef .tc main_arg8) = m ((c : Thread nD τ).loc main_arg8) :=
  (W5_of m ρ c main_arg8 (by decide)).trans <| (W4_in m ρ c 2 rfl).trans <| (W3_of m ρ c main_arg8 (by decide)).trans <| (W2_of_ne m ρ c main_arg8 (by decide)).trans <| (W1_of m ρ c main_arg8 (by decide)).trans rfl
theorem W5_main_arg9 (c : Dev nD) : W5 m ρ c (Proc.devRef .tc main_arg9) = m ((c : Thread nD τ).loc main_arg9) :=
  (W5_of m ρ c main_arg9 (by decide)).trans <| (W4_in m ρ c 3 rfl).trans <| (W3_of m ρ c main_arg9 (by decide)).trans <| (W2_of_ne m ρ c main_arg9 (by decide)).trans <| (W1_of m ρ c main_arg9 (by decide)).trans rfl
theorem W5_main_arg10 (c : Dev nD) : W5 m ρ c (Proc.devRef .tc main_arg10) = m ((c : Thread nD τ).loc main_arg10) :=
  (W5_of m ρ c main_arg10 (by decide)).trans <| (W4_in m ρ c 4 rfl).trans <| (W3_of m ρ c main_arg10 (by decide)).trans <| (W2_of_ne m ρ c main_arg10 (by decide)).trans <| (W1_of m ρ c main_arg10 (by decide)).trans rfl
theorem W5_main_arg11 (c : Dev nD) : W5 m ρ c (Proc.devRef .tc main_arg11) = m ((c : Thread nD τ).loc main_arg11) :=
  (W5_of m ρ c main_arg11 (by decide)).trans <| (W4_in m ρ c 5 rfl).trans <| (W3_of m ρ c main_arg11 (by decide)).trans <| (W2_of_ne m ρ c main_arg11 (by decide)).trans <| (W1_of m ρ c main_arg11 (by decide)).trans rfl
theorem W5_main_arg12 (c : Dev nD) : W5 m ρ c (Proc.devRef .tc main_arg12) = m ((c : Thread nD τ).loc main_arg12) :=
  (W5_of m ρ c main_arg12 (by decide)).trans <| (W4_of_ne m ρ c main_arg12 (by decide)).trans <| (W3_of m ρ c main_arg12 (by decide)).trans <| (W2_of_ne m ρ c main_arg12 (by decide)).trans <| (W1_of m ρ c main_arg12 (by decide)).trans rfl
theorem W5_main_arg13 (c : Dev nD) : W5 m ρ c (Proc.devRef .tc main_arg13) = m ((c : Thread nD τ).loc main_arg13) :=
  (W5_of m ρ c main_arg13 (by decide)).trans <| (W4_of_ne m ρ c main_arg13 (by decide)).trans <| (W3_of m ρ c main_arg13 (by decide)).trans <| (W2_of_ne m ρ c main_arg13 (by decide)).trans <| (W1_of m ρ c main_arg13 (by decide)).trans rfl

/-! # The proof data family, the thread state, the segments -/

/-- Every pipeline's proof data, each at its region's entry contents. -/
def pdats : (p : Fin 2) → (c : Dev nD) → Dat τ (Elt F) Unit ℕ (UR sig nD τ) ℕ (Pipeline.pin (pcfgs (F := F)) Cert.Kernel.Gen.adm p) c
  | ⟨0, _⟩ => fun c => dat0 (U1 m ρ) c
  | ⟨1, _⟩ => fun c => dat1 (U3 m ρ) c
abbrev adm : (p : Fin 2) → (pcfgs (F := F) p).Adm := Cert.Kernel.Gen.adm
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: entered with every unscoped buffer at `W1`, left with them at `W2`. Its arrays are split
    out of the unscoped buffers and put back at what the pipeline leaves; the generator register goes into the class's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its arrays are split
    out of the unscoped buffers and put back at what the pipeline leaves; the generator register goes into the class's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer of each core at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, with the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c)⟩) (run m ρ)

end Cert.Kernel.Run

end
-- ==== Proof.KernelIdealRun.lean ====
/-
  The run of the kernel program: @main is three stretches of host operations around two pipelined regions, each region
  a grid of 50 points over blocks of 3000 rows that tile its arrays. For every region, at any contents `V` of the core's
  buffers at its entry: the block of each window at a point, what the body leaves in the output window's buffer as a
  function of the six input blocks, the body's triple by symbolic execution, the pipeline's proof data and its body
  obligation. Then the buffers' contents at each boundary of @main as a fold from the launch memory (a host stretch
  applies its operations; a region leaves its output array at what its fifty write-backs assemble and everything else
  as entered), every argument read back through the fold to its launch contents, the two regions as segments over
  "every unscoped buffer at the boundary's contents", and the launch: every weakly fair execution terminates, faults
  nowhere, and ends with every unscoped buffer at the last boundary's contents. The frame claim is that run read at the
  arguments; a value claim reads it at the result. Everything here holds at any float instance.
-/
import proofs.«125295_j75127567941781_1_alg».proof.Proof.Gen.KernelIdeal.Launch
import proofs.«125295_j75127567941781_1_alg».proof.Proof.Gen.KernelIdeal.Skeleton
import proofs.«125295_j75127567941781_1_alg».proof.Proof.Gen.KernelIdeal.Points
import proofs.«125295_j75127567941781_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0 of @main (pipeline 0), at the contents `V` the core's buffers hold when the region is entered -/

/-- Window `w`'s block at grid point `t`: the rectangle of its array that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the point fetches it or the
    block index has not moved since the last fetch: for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole block of each block shape: what every load and the one store of the body access. -/
abbrev rA0 : Rect S3000x64 := Rect.unit (s := S3000x64) ![0, 0] S3000x64.size inb_S3000x64_S3000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output window's buffer, as a function of the six input blocks (the embeddings, the
    aggregated neighbours, the two weights and the two biases): its one store, of the layer's value, over the whole block. -/
def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rA0, k0_pay1 (View.ld x0 rA0) (View.ld x1 rA0) (View.ld x3 rB0) (View.ld x5 rB0) (View.ld x2 rW0) (View.ld x4 rW0)⟩]

/-- The one store covers the buffer. -/
theorem cover0_6 (p0 : Vec F S3000x64 .f32) (y : S3000x64.Idx) :
    ∃ pc ∈ ([⟨rA0, p0⟩] : List (View.Piece (Elt F) S3000x64 .f32)), y ∈ pc.1.set :=
  View.cover_of_tiled [⟨rA0, p0⟩] S3000x64.size (by rfl) y

set_option maxHeartbeats 1000000 in
/-- The body on whole staging buffers, the six inputs' at contents `x0 … x5` and the output's at anything: it runs to
    the end, faults nowhere, leaves the inputs as they were and the output buffer at `out0_6` of them. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__transform_kernel i arg1 harg1 arg2 harg2 arg3 harg3 arg4 harg4 arg5 harg5 arg6 harg6 arg7 harg7) K := by
  simp only [cc0__transform_kernel_eq_skeleton]; unfold cc0__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core `c`: the arrays as the region finds them; after the body at point `t` each
    input's buffer at its block and the output's at `out0_6` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main (pipeline 1), at the contents `V` the core's buffers hold when the region is entered -/

/-- Window `w`'s block at grid point `t`: the rectangle of its array that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point, whether the point fetches it or the
    block index has not moved since the last fetch: for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole block of each block shape: what every load and the one store of the body access. -/
abbrev rA1 : Rect S3000x64 := Rect.unit (s := S3000x64) ![0, 0] S3000x64.size inb_S3000x64_S3000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output window's buffer, as a function of the six input blocks (the embeddings, the
    aggregated neighbours, the two weights and the two biases): its one store, of the layer's value, over the whole block. -/
def out1_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rA1, k1_pay1 (View.ld x0 rA1) (View.ld x1 rA1) (View.ld x3 rB1) (View.ld x5 rB1) (View.ld x2 rW1) (View.ld x4 rW1)⟩]

/-- The one store covers the buffer. -/
theorem cover1_6 (p0 : Vec F S3000x64 .f32) (y : S3000x64.Idx) :
    ∃ pc ∈ ([⟨rA1, p0⟩] : List (View.Piece (Elt F) S3000x64 .f32)), y ∈ pc.1.set :=
  View.cover_of_tiled [⟨rA1, p0⟩] S3000x64.size (by rfl) y

set_option maxHeartbeats 1000000 in
/-- The body on whole staging buffers, the six inputs' at contents `x0 … x5` and the output's at anything: it runs to
    the end, faults nowhere, leaves the inputs as they were and the output buffer at `out1_6` of them. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__transform_kernel i arg1 harg1 arg2 harg2 arg3 harg3 arg4 harg4 arg5 harg5 arg6 harg6 arg7 harg7) K := by
  simp only [cc1__transform_kernel_eq_skeleton]; unfold cc1__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block and the output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The buffers' contents at each boundary of @main -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves (an input as entered, the output's write-backs assembled),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the end of @main. -/
abbrev W5 : Dev nD → Valuation τ sig (Elt F) := fun c => StableHlo.after hostOps2 (W4 m ρ c)

/-! A host stretch leaves every buffer none of its operations writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! Every argument ends as launched: no host operation writes one, and a region reads it through an input window or
    not at all. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <| (W2_in m ρ c 0 rfl).trans <| (W1_of m ρ c main_arg3 (by decide)).trans rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <| (W2_in m ρ c 2 rfl).trans <| (W1_of m ρ c main_arg4 (by decide)).trans rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <| (W2_in m ρ c 3 rfl).trans <| (W1_of m ρ c main_arg5 (by decide)).trans rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <| (W2_in m ρ c 4 rfl).trans <| (W1_of m ρ c main_arg6 (by decide)).trans rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <| (W2_in m ρ c 5 rfl).trans <| (W1_of m ρ c main_arg7 (by decide)).trans rfl
theorem W5_main_arg8 (c : Dev nD) : W5 m ρ c (Proc.devRef .tc main_arg8) = m ((c : Thread nD τ).loc main_arg8) :=
  (W5_of m ρ c main_arg8 (by decide)).trans <| (W4_in m ρ c 2 rfl).trans <| (W3_of m ρ c main_arg8 (by decide)).trans <| (W2_of_ne m ρ c main_arg8 (by decide)).trans <| (W1_of m ρ c main_arg8 (by decide)).trans rfl
theorem W5_main_arg9 (c : Dev nD) : W5 m ρ c (Proc.devRef .tc main_arg9) = m ((c : Thread nD τ).loc main_arg9) :=
  (W5_of m ρ c main_arg9 (by decide)).trans <| (W4_in m ρ c 3 rfl).trans <| (W3_of m ρ c main_arg9 (by decide)).trans <| (W2_of_ne m ρ c main_arg9 (by decide)).trans <| (W1_of m ρ c main_arg9 (by decide)).trans rfl
theorem W5_main_arg10 (c : Dev nD) : W5 m ρ c (Proc.devRef .tc main_arg10) = m ((c : Thread nD τ).loc main_arg10) :=
  (W5_of m ρ c main_arg10 (by decide)).trans <| (W4_in m ρ c 4 rfl).trans <| (W3_of m ρ c main_arg10 (by decide)).trans <| (W2_of_ne m ρ c main_arg10 (by decide)).trans <| (W1_of m ρ c main_arg10 (by decide)).trans rfl
theorem W5_main_arg11 (c : Dev nD) : W5 m ρ c (Proc.devRef .tc main_arg11) = m ((c : Thread nD τ).loc main_arg11) :=
  (W5_of m ρ c main_arg11 (by decide)).trans <| (W4_in m ρ c 5 rfl).trans <| (W3_of m ρ c main_arg11 (by decide)).trans <| (W2_of_ne m ρ c main_arg11 (by decide)).trans <| (W1_of m ρ c main_arg11 (by decide)).trans rfl
theorem W5_main_arg12 (c : Dev nD) : W5 m ρ c (Proc.devRef .tc main_arg12) = m ((c : Thread nD τ).loc main_arg12) :=
  (W5_of m ρ c main_arg12 (by decide)).trans <| (W4_of_ne m ρ c main_arg12 (by decide)).trans <| (W3_of m ρ c main_arg12 (by decide)).trans <| (W2_of_ne m ρ c main_arg12 (by decide)).trans <| (W1_of m ρ c main_arg12 (by decide)).trans rfl
theorem W5_main_arg13 (c : Dev nD) : W5 m ρ c (Proc.devRef .tc main_arg13) = m ((c : Thread nD τ).loc main_arg13) :=
  (W5_of m ρ c main_arg13 (by decide)).trans <| (W4_of_ne m ρ c main_arg13 (by decide)).trans <| (W3_of m ρ c main_arg13 (by decide)).trans <| (W2_of_ne m ρ c main_arg13 (by decide)).trans <| (W1_of m ρ c main_arg13 (by decide)).trans rfl

/-! # The proof data family, the thread state, the segments -/

/-- Every pipeline's proof data, each at its region's entry contents. -/
def pdats : (p : Fin 2) → (c : Dev nD) → Dat τ (Elt F) Unit ℕ (UR sig nD τ) ℕ (Pipeline.pin (pcfgs (F := F)) Cert.KernelIdeal.Gen.adm p) c
  | ⟨0, _⟩ => fun c => dat0 (U1 m ρ) c
  | ⟨1, _⟩ => fun c => dat1 (U3 m ρ) c
abbrev adm : (p : Fin 2) → (pcfgs (F := F) p).Adm := Cert.KernelIdeal.Gen.adm
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: entered with every unscoped buffer at `W1`, left with them at `W2`. Its arrays are split
    out of the unscoped buffers and put back at what the pipeline leaves; the generator register goes into the class's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its arrays are split
    out of the unscoped buffers and put back at what the pipeline leaves; the generator register goes into the class's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer of each core at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, with the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c)⟩) (run m ρ)

end Cert.KernelIdeal.Run

end
-- ==== Proof.LibNgcfLayer.lean ====
/-
  One dense layer of a two-branch graph network, entry by entry over the extended reals, for any extents.
  For node features x and aggregated features side, both [N, D], two weight matrices Wg, Wb : [D, E] and two bias rows
  bg, bb : [1, E], the layer at row p and column q is

    pre p q  = ((Σ_k side (p, k) · Wg (k, q)) + bg (0, q)) + ((Σ_k (x (p, k) · side (p, k)) · Wb (k, q)) + bb (0, q))
    act p q  = pre p q where 0 ≤ pre p q, else slope · pre p q
    nrm p    = max (sqrt (Σ_q act p q · act p q)) floor
    out p q  = act p q / nrm p

  with slope and floor the values of two fixed f32 words, which are never evaluated. The products, sums and the
  quotient are the extended reals' own (the quotient with its conventions at a zero divisor), so nothing here asks the
  entries to be finite. Row p of the result reads only row p of x and of side.
-/
import Idealize.ShloMosaic.PureOps.Ideal.Laws
import Idealize.ShloMosaic.Lib.ValueIdx

noncomputable section

namespace Cert.Lib

open Idealize.ShloMosaic Idealize.ShloMosaic.ValueIdx

variable {N D E : Nat}

/-- The slope of the rectifier below zero: the value of its f32 word. -/
def leakySlope : EReal := Ideal.ofBits .f32 0x3E4CCCCD#32

/-- The least divisor of the normalisation: the value of its f32 word. -/
def normFloor : EReal := Ideal.ofBits .f32 0x2B8CBCCC#32

/-- The leaky rectifier on one extended real. -/
def leakyOf (a : EReal) : EReal := if 0 ≤ a then a else leakySlope * a

/-- The sum of the two affine maps at (p, q). -/
def preAt (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) (q : Fin E) : EReal :=
  ((∑ k : Fin D, side (ix2 p k) * Wg (ix2 k q)) + bg (ix2 (0 : Fin 1) q))
    + ((∑ k : Fin D, (x (ix2 p k) * side (ix2 p k)) * Wb (ix2 k q)) + bb (ix2 (0 : Fin 1) q))

/-- The rectified sum at (p, q). -/
def actAt (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) (q : Fin E) : EReal :=
  leakyOf (preAt x side Wg bg Wb bb p q)

/-- The divisor of row p: the larger of the row's Euclidean norm and the floor. -/
def nrmAt (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) : EReal :=
  max (Ideal.sqrt (∑ q : Fin E, actAt x side Wg bg Wb bb p q * actAt x side Wg bg Wb bb p q)) normFloor

/-- The layer at (p, q). -/
def layerAt (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) (q : Fin E) : EReal :=
  Ideal.div (actAt x side Wg bg Wb bb p q) (nrmAt x side Wg bg Wb bb p)

/-- The layer as an [N, E] array. -/
def layer (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) : FVec Ideal ⟨2, ![N, E]⟩ .f32 :=
  fun i => layerAt x side Wg bg Wb bb ⟨(i 0).val, idx2_lt0 i⟩ ⟨(i 1).val, idx2_lt1 i⟩

/-- The array at (p, q) is the entry's formula. -/
theorem layer_apply (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) (q : Fin E) :
    layer x side Wg bg Wb bb (ix2 p q) = layerAt x side Wg bg Wb bb p q := rfl

section RowLocality

variable {N' : Nat}

/-- The sum of the affine maps at row p reads only row p of the two feature arrays. -/
theorem preAt_row_congr (x side : FVec Ideal ⟨2, ![N, D]⟩ .f32) (x' side' : FVec Ideal ⟨2, ![N', D]⟩ .f32)
    (Wg : FVec Ideal ⟨2, ![D, E]⟩ .f32) (bg : FVec Ideal ⟨2, ![1, E]⟩ .f32) (Wb : FVec Ideal ⟨2, ![D, E]⟩ .f32)
    (bb : FVec Ideal ⟨2, ![1, E]⟩ .f32) (p : Fin N) (p' : Fin N') (q : Fin E)
    (hx : ∀ k : Fin D, x (ix2 p k) = x' (ix2 p' k)) (hs : ∀ k : Fin D, side (ix2 p k) = side' (ix2 p' k)) :
    preAt x side Wg bg Wb bb p q = preAt x' side' Wg bg Wb bb p' q := by
  have e1 : ∑ k : Fin D, side (ix2 p k) * Wg (ix2 k q) = ∑ k : Fin D, side' (ix2 p' k) * Wg (ix2 k q) :=
    Finset.sum_congr rfl fun k _ => by rw [hs k]
  have e2 : ∑ k : Fin D, (x (ix2 p k) * side (ix2 p k)) * Wb (ix2 k q)
      = ∑ k : Fin D, (x' (ix2 p' k) * side' (ix2 p' k)) * Wb (ix2 k q) :=
    Finset.sum_congr rfl fun k _ => by rw [hx k, hs k]
  unfold preAt
  rw [e1, e2]

/-- So does the rectified sum. -/
theorem actAt_row_congr (x side : FVec Ideal ⟨2, ![N, D]⟩ .f32) (x' side' : FVec Ideal ⟨2, ![N', D]⟩ .f32)
    (Wg : FVec Ideal ⟨2, ![D, E]⟩ .f32) (bg : FVec Ideal ⟨2, ![1, E]⟩ .f32) (Wb : FVec Ideal ⟨2, ![D, E]⟩ .f32)
    (bb : FVec Ideal ⟨2, ![1, E]⟩ .f32) (p : Fin N) (p' : Fin N') (q : Fin E)
    (hx : ∀ k : Fin D, x (ix2 p k) = x' (ix2 p' k)) (hs : ∀ k : Fin D, side (ix2 p k) = side' (ix2 p' k)) :
    actAt x side Wg bg Wb bb p q = actAt x' side' Wg bg Wb bb p' q := by
  unfold actAt
  rw [preAt_row_congr x side x' side' Wg bg Wb bb p p' q hx hs]

/-- So does the row's divisor. -/
theorem nrmAt_row_congr (x side : FVec Ideal ⟨2, ![N, D]⟩ .f32) (x' side' : FVec Ideal ⟨2, ![N', D]⟩ .f32)
    (Wg : FVec Ideal ⟨2, ![D, E]⟩ .f32) (bg : FVec Ideal ⟨2, ![1, E]⟩ .f32) (Wb : FVec Ideal ⟨2, ![D, E]⟩ .f32)
    (bb : FVec Ideal ⟨2, ![1, E]⟩ .f32) (p : Fin N) (p' : Fin N')
    (hx : ∀ k : Fin D, x (ix2 p k) = x' (ix2 p' k)) (hs : ∀ k : Fin D, side (ix2 p k) = side' (ix2 p' k)) :
    nrmAt x side Wg bg Wb bb p = nrmAt x' side' Wg bg Wb bb p' := by
  have e : ∑ q : Fin E, actAt x side Wg bg Wb bb p q * actAt x side Wg bg Wb bb p q
      = ∑ q : Fin E, actAt x' side' Wg bg Wb bb p' q * actAt x' side' Wg bg Wb bb p' q :=
    Finset.sum_congr rfl fun q _ => by rw [actAt_row_congr x side x' side' Wg bg Wb bb p p' q hx hs]
  unfold nrmAt
  rw [e]

/-- Row locality of the layer: two pairs of feature arrays, of any heights, that agree on one row each give the same
    layer on those rows. -/
theorem layerAt_row_congr (x side : FVec Ideal ⟨2, ![N, D]⟩ .f32) (x' side' : FVec Ideal ⟨2, ![N', D]⟩ .f32)
    (Wg : FVec Ideal ⟨2, ![D, E]⟩ .f32) (bg : FVec Ideal ⟨2, ![1, E]⟩ .f32) (Wb : FVec Ideal ⟨2, ![D, E]⟩ .f32)
    (bb : FVec Ideal ⟨2, ![1, E]⟩ .f32) (p : Fin N) (p' : Fin N') (q : Fin E)
    (hx : ∀ k : Fin D, x (ix2 p k) = x' (ix2 p' k)) (hs : ∀ k : Fin D, side (ix2 p k) = side' (ix2 p' k)) :
    layerAt x side Wg bg Wb bb p q = layerAt x' side' Wg bg Wb bb p' q := by
  unfold layerAt
  rw [actAt_row_congr x side x' side' Wg bg Wb bb p p' q hx hs, nrmAt_row_congr x side x' side' Wg bg Wb bb p p' hx hs]

end RowLocality

end Cert.Lib

end
-- ==== Proof.KernelIdealBlocks.lean ====
/-
  The two regions' write-backs assembled, at the extended reals: each region's output array after its fifty grid points
  is ONE function of the arrays the region finds, the dense layer of the whole [150000, 64] feature arrays. Point `t`
  computes the layer of rows `3000 t … 3000 t + 2999`; a layer's row reads only the same row of the two feature
  arrays, so the block's layer is the array's layer on those rows; the blocks tile the array. That the body's value on a
  block is the layer of the block is taken as a hypothesis here (it is the kernel body's arithmetic read at an index).
-/
import proofs.«125295_j75127567941781_1_alg».proof.Proof.KernelIdealRun
import proofs.«125295_j75127567941781_1_alg».proof.Proof.LibNgcfLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Run

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The block index of every window of region 0 at every grid point: the three row windows move with the point along
    the rows, the weights and biases stay at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the first row window's block at point `t` is row `3000 t + p` of its array. -/
theorem iblk0_0_apply (c : Dev nD) (t : Fin cfg0.N) (p : Fin 3000) (k : Fin 64) (hp : t.val * 3000 + p.val < 150000) :
    (iblk0 V c 0 t : Vec Ideal S3000x64 .f32) (ix2 p k) = (V c main_arg3 : S150000x64.Idx → EReal) (ix2 ⟨t.val * 3000 + p.val, hp⟩ k) := by
  obtain ⟨e0, e1, -⟩ := idx0 t
  unfold iblk0
  rw [View.read_apply]
  show V c main_arg3 _ = V c main_arg3 _
  congr 1
  funext a; apply Fin.ext
  match a with
  | ⟨0, _⟩ => show win0_0.index t 0 * 3000 + 1 * p.val = t.val * 3000 + p.val; rw [e0]; omega
  | ⟨1, _⟩ => show win0_0.index t 1 * 64 + 1 * k.val = k.val; rw [e1]; omega

/-- The same for the second row window. -/
theorem iblk0_1_apply (c : Dev nD) (t : Fin cfg0.N) (p : Fin 3000) (k : Fin 64) (hp : t.val * 3000 + p.val < 150000) :
    (iblk0 V c 1 t : Vec Ideal S3000x64 .f32) (ix2 p k) = (V c main_v12 : S150000x64.Idx → EReal) (ix2 ⟨t.val * 3000 + p.val, hp⟩ k) := by
  obtain ⟨-, -, e0, e1, -⟩ := idx0 t
  unfold iblk0
  rw [View.read_apply]
  show V c main_v12 _ = V c main_v12 _
  congr 1
  funext a; apply Fin.ext
  match a with
  | ⟨0, _⟩ => show win0_1.index t 0 * 3000 + 1 * p.val = t.val * 3000 + p.val; rw [e0]; omega
  | ⟨1, _⟩ => show win0_1.index t 1 * 64 + 1 * k.val = k.val; rw [e1]; omega

/-- A weight's or a bias's one block is its whole array. -/
theorem iblk0_2_eq (c : Dev nD) (t : Fin cfg0.N) : (iblk0 V c 2 t : Vec Ideal S64x64 .f32) = (V c main_arg4 : S64x64.Idx → EReal) := by
  obtain ⟨-, -, -, -, e0, e1, -⟩ := idx0 t
  funext j
  unfold iblk0
  rw [View.read_apply]
  show V c main_arg4 _ = V c main_arg4 j
  congr 1
  funext a; apply Fin.ext
  match a with
  | ⟨0, _⟩ => show win0_2.index t 0 * 64 + 1 * (j 0).val = (j 0).val; rw [e0]; omega
  | ⟨1, _⟩ => show win0_2.index t 1 * 64 + 1 * (j 1).val = (j 1).val; rw [e1]; omega
theorem iblk0_3_eq (c : Dev nD) (t : Fin cfg0.N) : (iblk0 V c 3 t : Vec Ideal S1x64 .f32) = (V c main_arg5 : S1x64.Idx → EReal) := by
  obtain ⟨-, -, -, -, -, -, e0, e1, -⟩ := idx0 t
  funext j
  unfold iblk0
  rw [View.read_apply]
  show V c main_arg5 _ = V c main_arg5 j
  congr 1
  funext a; apply Fin.ext
  match a with
  | ⟨0, _⟩ => show win0_3.index t 0 * 1 + 1 * (j 0).val = (j 0).val; rw [e0]; omega
  | ⟨1, _⟩ => show win0_3.index t 1 * 64 + 1 * (j 1).val = (j 1).val; rw [e1]; omega
theorem iblk0_4_eq (c : Dev nD) (t : Fin cfg0.N) : (iblk0 V c 4 t : Vec Ideal S64x64 .f32) = (V c main_arg6 : S64x64.Idx → EReal) := by
  obtain ⟨-, -, -, -, -, -, -, -, e0, e1, -⟩ := idx0 t
  funext j
  unfold iblk0
  rw [View.read_apply]
  show V c main_arg6 _ = V c main_arg6 j
  congr 1
  funext a; apply Fin.ext
  match a with
  | ⟨0, _⟩ => show win0_4.index t 0 * 64 + 1 * (j 0).val = (j 0).val; rw [e0]; omega
  | ⟨1, _⟩ => show win0_4.index t 1 * 64 + 1 * (j 1).val = (j 1).val; rw [e1]; omega
theorem iblk0_5_eq (c : Dev nD) (t : Fin cfg0.N) : (iblk0 V c 5 t : Vec Ideal S1x64 .f32) = (V c main_arg7 : S1x64.Idx → EReal) := by
  obtain ⟨-, -, -, -, -, -, -, -, -, -, e0, e1, -⟩ := idx0 t
  funext j
  unfold iblk0
  rw [View.read_apply]
  show V c main_arg7 _ = V c main_arg7 j
  congr 1
  funext a; apply Fin.ext
  match a with
  | ⟨0, _⟩ => show win0_5.index t 0 * 1 + 1 * (j 0).val = (j 0).val; rw [e0]; omega
  | ⟨1, _⟩ => show win0_5.index t 1 * 64 + 1 * (j 1).val = (j 1).val; rw [e1]; omega

/-- What region 0's output array ends holding: the layer of the arrays the region finds, as one [150000, 64] function. -/
def G0 (c : Dev nD) : S150000x64.Idx → EReal :=
  Cert.Lib.layer (N := 150000) (D := 64) (E := 64) (V c main_arg3) (V c main_v12) (V c main_arg4) (V c main_arg5) (V c main_arg6) (V c main_arg7)

/-- What point `t` writes back is block `t` of that function: the body's value on the point's blocks is the layer of
    the 3000-row blocks, and row `p` of a block's layer reads only row `p` of the two feature blocks, which are rows
    `3000 t + p` of the arrays. -/
theorem flushed0 (hpay : ∀ (v0 v1 : Vec Ideal S3000x64 .f32) (v3 v4 : Vec Ideal S1x64 .f32) (v5 v7 : Vec Ideal S64x64 .f32),
      k0_pay1 (F := Ideal) v0 v1 v3 v4 v5 v7 = Cert.Lib.layer (N := 3000) (D := 64) (E := 64) v0 v1 v5 v3 v7 v4)
    (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S3000x64) hz, View.ld_unit_zero (S := S64x64) hz, View.ld_unit_zero (S := S1x64) hz]
  rw [hpay, iblk0_2_eq, iblk0_3_eq, iblk0_4_eq, iblk0_5_eq]
  funext j
  obtain ⟨p, q, rfl⟩ : ∃ (p : Fin 3000) (q : Fin 64), j = ix2 p q := ⟨j 0, j 1, eq_ix2 j⟩
  have ht : t.val < 50 := lt_of_lt_of_eq t.isLt N_0
  have hp : t.val * 3000 + p.val < 150000 := by have := p.isLt; omega
  have he : ((cfg0.win 6).blk t).view.emb (ix2 p q) = (ix2 ⟨t.val * 3000 + p.val, hp⟩ q : S150000x64.Idx) := by
    obtain ⟨-, -, -, -, -, -, -, -, -, -, -, -, e0, e1⟩ := idx0 t
    funext a; apply Fin.ext
    match a with
    | ⟨0, _⟩ => show win0_6.index t 0 * 3000 + 1 * p.val = t.val * 3000 + p.val; rw [e0]; omega
    | ⟨1, _⟩ => show win0_6.index t 1 * 64 + 1 * q.val = q.val; rw [e1]; omega
  rw [View.read_apply, he]
  show Cert.Lib.layer (N := 3000) (D := 64) (E := 64) (iblk0 V c 0 t) (iblk0 V c 1 t) (V c main_arg4) (V c main_arg5) (V c main_arg6) (V c main_arg7) (ix2 p q)
    = Cert.Lib.layer (N := 150000) (D := 64) (E := 64) (V c main_arg3) (V c main_v12) (V c main_arg4) (V c main_arg5) (V c main_arg6) (V c main_arg7) (ix2 ⟨t.val * 3000 + p.val, hp⟩ q)
  rw [Cert.Lib.layer_apply, Cert.Lib.layer_apply]
  exact Cert.Lib.layerAt_row_congr _ _ _ _ _ _ _ _ p ⟨_, hp⟩ q (fun k => iblk0_0_apply V c t p k hp) (fun k => iblk0_1_apply V c t p k hp)

/-- The fifty blocks tile the array, so after the region the output array IS that function. -/
theorem final0 (hpay : ∀ (v0 v1 : Vec Ideal S3000x64 .f32) (v3 v4 : Vec Ideal S1x64 .f32) (v5 v7 : Vec Ideal S64x64 .f32),
      k0_pay1 (F := Ideal) v0 v1 v3 v4 v5 v7 = Cert.Lib.layer (N := 3000) (D := 64) (E := 64) v0 v1 v5 v3 v7 v4)
    (c : Dev nD) : (dat0 V c).arrAt 6 cfg0.N = G0 V c :=
  (dat0 V c).arrAt_eq_of_cover 6 (G0 V c) (fun t _ => flushed0 V hpay c t) fun i => by
    have h0 : (i 0 : Nat) < 150000 := (i 0).isLt
    have h1 : (i 1 : Nat) < 64 := (i 1).isLt
    have hlt : (i 0 : Nat) / 3000 < cfg0.N := lt_of_lt_of_eq (by omega : (i 0 : Nat) / 3000 < 50) N_0.symm
    refine ⟨⟨(i 0 : Nat) / 3000, hlt⟩, flush0_6 _, ?_⟩
    show i ∈ ((View.whole main_v13).slice (win0_6.rect ⟨(i 0 : Nat) / 3000, hlt⟩)).set
    rw [View.set_slice_whole, Rect.mem_set_unit]
    obtain ⟨-, -, -, -, -, -, -, -, -, -, -, -, e0, e1⟩ := idx0 ⟨(i 0 : Nat) / 3000, hlt⟩
    intro a
    match a with
    | ⟨0, _⟩ =>
      show win0_6.index _ 0 * 3000 ≤ (i 0 : Nat) ∧ (i 0 : Nat) < win0_6.index _ 0 * 3000 + 3000
      rw [e0]; show (i 0 : Nat) / 3000 * 3000 ≤ (i 0 : Nat) ∧ (i 0 : Nat) < (i 0 : Nat) / 3000 * 3000 + 3000; omega
    | ⟨1, _⟩ =>
      show win0_6.index _ 1 * 64 ≤ (i 1 : Nat) ∧ (i 1 : Nat) < win0_6.index _ 1 * 64 + 64
      rw [e1]; omega

/-! ## Region 1 -/

/-- The block index of every window of region 1 at every grid point: the three row windows move with the point along
    the rows, the weights and biases stay at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the first row window's block at point `t` is row `3000 t + p` of its array. -/
theorem iblk1_0_apply (c : Dev nD) (t : Fin cfg1.N) (p : Fin 3000) (k : Fin 64) (hp : t.val * 3000 + p.val < 150000) :
    (iblk1 V c 0 t : Vec Ideal S3000x64 .f32) (ix2 p k) = (V c main_v13 : S150000x64.Idx → EReal) (ix2 ⟨t.val * 3000 + p.val, hp⟩ k) := by
  obtain ⟨e0, e1, -⟩ := idx1 t
  unfold iblk1
  rw [View.read_apply]
  show V c main_v13 _ = V c main_v13 _
  congr 1
  funext a; apply Fin.ext
  match a with
  | ⟨0, _⟩ => show win1_0.index t 0 * 3000 + 1 * p.val = t.val * 3000 + p.val; rw [e0]; omega
  | ⟨1, _⟩ => show win1_0.index t 1 * 64 + 1 * k.val = k.val; rw [e1]; omega

/-- The same for the second row window. -/
theorem iblk1_1_apply (c : Dev nD) (t : Fin cfg1.N) (p : Fin 3000) (k : Fin 64) (hp : t.val * 3000 + p.val < 150000) :
    (iblk1 V c 1 t : Vec Ideal S3000x64 .f32) (ix2 p k) = (V c main_v26 : S150000x64.Idx → EReal) (ix2 ⟨t.val * 3000 + p.val, hp⟩ k) := by
  obtain ⟨-, -, e0, e1, -⟩ := idx1 t
  unfold iblk1
  rw [View.read_apply]
  show V c main_v26 _ = V c main_v26 _
  congr 1
  funext a; apply Fin.ext
  match a with
  | ⟨0, _⟩ => show win1_1.index t 0 * 3000 + 1 * p.val = t.val * 3000 + p.val; rw [e0]; omega
  | ⟨1, _⟩ => show win1_1.index t 1 * 64 + 1 * k.val = k.val; rw [e1]; omega

/-- A weight's or a bias's one block is its whole array. -/
theorem iblk1_2_eq (c : Dev nD) (t : Fin cfg1.N) : (iblk1 V c 2 t : Vec Ideal S64x64 .f32) = (V c main_arg8 : S64x64.Idx → EReal) := by
  obtain ⟨-, -, -, -, e0, e1, -⟩ := idx1 t
  funext j
  unfold iblk1
  rw [View.read_apply]
  show V c main_arg8 _ = V c main_arg8 j
  congr 1
  funext a; apply Fin.ext
  match a with
  | ⟨0, _⟩ => show win1_2.index t 0 * 64 + 1 * (j 0).val = (j 0).val; rw [e0]; omega
  | ⟨1, _⟩ => show win1_2.index t 1 * 64 + 1 * (j 1).val = (j 1).val; rw [e1]; omega
theorem iblk1_3_eq (c : Dev nD) (t : Fin cfg1.N) : (iblk1 V c 3 t : Vec Ideal S1x64 .f32) = (V c main_arg9 : S1x64.Idx → EReal) := by
  obtain ⟨-, -, -, -, -, -, e0, e1, -⟩ := idx1 t
  funext j
  unfold iblk1
  rw [View.read_apply]
  show V c main_arg9 _ = V c main_arg9 j
  congr 1
  funext a; apply Fin.ext
  match a with
  | ⟨0, _⟩ => show win1_3.index t 0 * 1 + 1 * (j 0).val = (j 0).val; rw [e0]; omega
  | ⟨1, _⟩ => show win1_3.index t 1 * 64 + 1 * (j 1).val = (j 1).val; rw [e1]; omega
theorem iblk1_4_eq (c : Dev nD) (t : Fin cfg1.N) : (iblk1 V c 4 t : Vec Ideal S64x64 .f32) = (V c main_arg10 : S64x64.Idx → EReal) := by
  obtain ⟨-, -, -, -, -, -, -, -, e0, e1, -⟩ := idx1 t
  funext j
  unfold iblk1
  rw [View.read_apply]
  show V c main_arg10 _ = V c main_arg10 j
  congr 1
  funext a; apply Fin.ext
  match a with
  | ⟨0, _⟩ => show win1_4.index t 0 * 64 + 1 * (j 0).val = (j 0).val; rw [e0]; omega
  | ⟨1, _⟩ => show win1_4.index t 1 * 64 + 1 * (j 1).val = (j 1).val; rw [e1]; omega
theorem iblk1_5_eq (c : Dev nD) (t : Fin cfg1.N) : (iblk1 V c 5 t : Vec Ideal S1x64 .f32) = (V c main_arg11 : S1x64.Idx → EReal) := by
  obtain ⟨-, -, -, -, -, -, -, -, -, -, e0, e1, -⟩ := idx1 t
  funext j
  unfold iblk1
  rw [View.read_apply]
  show V c main_arg11 _ = V c main_arg11 j
  congr 1
  funext a; apply Fin.ext
  match a with
  | ⟨0, _⟩ => show win1_5.index t 0 * 1 + 1 * (j 0).val = (j 0).val; rw [e0]; omega
  | ⟨1, _⟩ => show win1_5.index t 1 * 64 + 1 * (j 1).val = (j 1).val; rw [e1]; omega

/-- What region 1's output array ends holding: the layer of the arrays the region finds, as one [150000, 64] function. -/
def G1 (c : Dev nD) : S150000x64.Idx → EReal :=
  Cert.Lib.layer (N := 150000) (D := 64) (E := 64) (V c main_v13) (V c main_v26) (V c main_arg8) (V c main_arg9) (V c main_arg10) (V c main_arg11)

/-- What point `t` writes back is block `t` of that function: the body's value on the point's blocks is the layer of
    the 3000-row blocks, and row `p` of a block's layer reads only row `p` of the two feature blocks, which are rows
    `3000 t + p` of the arrays. -/
theorem flushed1 (hpay : ∀ (v0 v1 : Vec Ideal S3000x64 .f32) (v3 v4 : Vec Ideal S1x64 .f32) (v5 v7 : Vec Ideal S64x64 .f32),
      k1_pay1 (F := Ideal) v0 v1 v3 v4 v5 v7 = Cert.Lib.layer (N := 3000) (D := 64) (E := 64) v0 v1 v5 v3 v7 v4)
    (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S3000x64) hz, View.ld_unit_zero (S := S64x64) hz, View.ld_unit_zero (S := S1x64) hz]
  rw [hpay, iblk1_2_eq, iblk1_3_eq, iblk1_4_eq, iblk1_5_eq]
  funext j
  obtain ⟨p, q, rfl⟩ : ∃ (p : Fin 3000) (q : Fin 64), j = ix2 p q := ⟨j 0, j 1, eq_ix2 j⟩
  have ht : t.val < 50 := lt_of_lt_of_eq t.isLt N_1
  have hp : t.val * 3000 + p.val < 150000 := by have := p.isLt; omega
  have he : ((cfg1.win 6).blk t).view.emb (ix2 p q) = (ix2 ⟨t.val * 3000 + p.val, hp⟩ q : S150000x64.Idx) := by
    obtain ⟨-, -, -, -, -, -, -, -, -, -, -, -, e0, e1⟩ := idx1 t
    funext a; apply Fin.ext
    match a with
    | ⟨0, _⟩ => show win1_6.index t 0 * 3000 + 1 * p.val = t.val * 3000 + p.val; rw [e0]; omega
    | ⟨1, _⟩ => show win1_6.index t 1 * 64 + 1 * q.val = q.val; rw [e1]; omega
  rw [View.read_apply, he]
  show Cert.Lib.layer (N := 3000) (D := 64) (E := 64) (iblk1 V c 0 t) (iblk1 V c 1 t) (V c main_arg8) (V c main_arg9) (V c main_arg10) (V c main_arg11) (ix2 p q)
    = Cert.Lib.layer (N := 150000) (D := 64) (E := 64) (V c main_v13) (V c main_v26) (V c main_arg8) (V c main_arg9) (V c main_arg10) (V c main_arg11) (ix2 ⟨t.val * 3000 + p.val, hp⟩ q)
  rw [Cert.Lib.layer_apply, Cert.Lib.layer_apply]
  exact Cert.Lib.layerAt_row_congr _ _ _ _ _ _ _ _ p ⟨_, hp⟩ q (fun k => iblk1_0_apply V c t p k hp) (fun k => iblk1_1_apply V c t p k hp)

/-- The fifty blocks tile the array, so after the region the output array IS that function. -/
theorem final1 (hpay : ∀ (v0 v1 : Vec Ideal S3000x64 .f32) (v3 v4 : Vec Ideal S1x64 .f32) (v5 v7 : Vec Ideal S64x64 .f32),
      k1_pay1 (F := Ideal) v0 v1 v3 v4 v5 v7 = Cert.Lib.layer (N := 3000) (D := 64) (E := 64) v0 v1 v5 v3 v7 v4)
    (c : Dev nD) : (dat1 V c).arrAt 6 cfg1.N = G1 V c :=
  (dat1 V c).arrAt_eq_of_cover 6 (G1 V c) (fun t _ => flushed1 V hpay c t) fun i => by
    have h0 : (i 0 : Nat) < 150000 := (i 0).isLt
    have h1 : (i 1 : Nat) < 64 := (i 1).isLt
    have hlt : (i 0 : Nat) / 3000 < cfg1.N := lt_of_lt_of_eq (by omega : (i 0 : Nat) / 3000 < 50) N_1.symm
    refine ⟨⟨(i 0 : Nat) / 3000, hlt⟩, flush1_6 _, ?_⟩
    show i ∈ ((View.whole main_v27).slice (win1_6.rect ⟨(i 0 : Nat) / 3000, hlt⟩)).set
    rw [View.set_slice_whole, Rect.mem_set_unit]
    obtain ⟨-, -, -, -, -, -, -, -, -, -, -, -, e0, e1⟩ := idx1 ⟨(i 0 : Nat) / 3000, hlt⟩
    intro a
    match a with
    | ⟨0, _⟩ =>
      show win1_6.index _ 0 * 3000 ≤ (i 0 : Nat) ∧ (i 0 : Nat) < win1_6.index _ 0 * 3000 + 3000
      rw [e0]; show (i 0 : Nat) / 3000 * 3000 ≤ (i 0 : Nat) ∧ (i 0 : Nat) < (i 0 : Nat) / 3000 * 3000 + 3000; omega
    | ⟨1, _⟩ =>
      show win1_6.index _ 1 * 64 ≤ (i 1 : Nat) ∧ (i 1 : Nat) < win1_6.index _ 1 * 64 + 64
      rw [e1]; omega

end Cert.KernelIdeal.Blocks

end
-- ==== Proof.RefTerms.lean ====
/-
  The reference program's stages as named terms of its argument arrays: the sparse aggregation (a gather of rows by
  the wrapped column indices, a scaling by the edge weights, a scatter-add by the row indices into zeros), one dense
  layer (two products with their biases, their sum, the leaky rectifier, the division of each row by the larger of its
  Euclidean norm and a small constant), and the scoring tail (the three embeddings laid side by side, two gathers of
  rows and the sum over each row of their product). Each is the composition of the program's own host operations.
-/
import proofs.«125295_j75127567941781_1_alg».proof.ReferenceIdeal
import proofs.«125295_j75127567941781_1_alg».proof.Proof.Gen.ReferenceIdeal

noncomputable section

namespace Cert.ReferenceIdeal.Terms

open Cert.ReferenceIdeal Cert.ReferenceIdeal.Facts₀ Cert.ReferenceIdeal.Facts Idealize.ShloMosaic Idealize.SL.Sem

variable {F : FTy → Type} [FloatOps F]

/-- The neighbourhood sum: row `r` of the result is the sum over the edges `e` with `rows e = r` of `vals e` times row
    `cols e` of `x` (a negative column index counted from the end), in the program's operations. -/
def agg (rows cols : (⟨S2400000, .i32⟩ : BufTy).Contents (Elt F)) (vals : (⟨S2400000, .f32⟩ : BufTy).Contents (Elt F))
    (x : (⟨S150000x64, .f32⟩ : BufTy).Contents (Elt F)) : (⟨S150000x64, .f32⟩ : BufTy).Contents (Elt F) :=
  Host.scatterAdd scatter_S150000x64_S2400000x1_S2400000x64_1_0_0_1
    ((broadcastInDim S150000x64 ![] bcast_S_S150000x64 : (⟨S_, .f32⟩ : BufTy).Contents (Elt F) → (⟨S150000x64, .f32⟩ : BufTy).Contents (Elt F)) (constant S_ .f32 0x00000000#32))
    ((broadcastInDim S2400000x1 ![0] bcast_S2400000_S2400000x1_0 : (⟨S2400000, .i32⟩ : BufTy).Contents (Elt F) → (⟨S2400000x1, .i32⟩ : BufTy).Contents (Elt F)) rows)
    ((mulf : (⟨S2400000x64, .f32⟩ : BufTy).Contents (Elt F) → (⟨S2400000x64, .f32⟩ : BufTy).Contents (Elt F) → (⟨S2400000x64, .f32⟩ : BufTy).Contents (Elt F))
      ((broadcastInDim S2400000x64 ![0, 1] bcast_S2400000x1_S2400000x64_0_1 : (⟨S2400000x1, .f32⟩ : BufTy).Contents (Elt F) → (⟨S2400000x64, .f32⟩ : BufTy).Contents (Elt F))
        ((broadcastInDim S2400000x1 ![0] bcast_S2400000_S2400000x1_0 : (⟨S2400000, .f32⟩ : BufTy).Contents (Elt F) → (⟨S2400000x1, .f32⟩ : BufTy).Contents (Elt F)) vals))
      (Host.gather gather_S150000x64_S2400000x1_S2400000x64_1_0_n_n_0_1_164 x
        ((broadcastInDim S2400000x1 ![0] bcast_S2400000_S2400000x1_0 : (⟨S2400000, .i32⟩ : BufTy).Contents (Elt F) → (⟨S2400000x1, .i32⟩ : BufTy).Contents (Elt F))
          ((select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F))
            ((cmpi .slt : (⟨S2400000, .i32⟩ : BufTy).Contents (Elt F) → (⟨S2400000, .i32⟩ : BufTy).Contents (Elt F) → (⟨S2400000, .i1⟩ : BufTy).Contents (Elt F)) cols
              ((broadcastInDim S2400000 ![] bcast_S_S2400000 : (⟨S_, .i32⟩ : BufTy).Contents (Elt F) → (⟨S2400000, .i32⟩ : BufTy).Contents (Elt F)) (constantI S_ 32 0#32)))
            ((addi : (⟨S2400000, .i32⟩ : BufTy).Contents (Elt F) → (⟨S2400000, .i32⟩ : BufTy).Contents (Elt F) → (⟨S2400000, .i32⟩ : BufTy).Contents (Elt F)) cols
              ((broadcastInDim S2400000 ![] bcast_S_S2400000 : (⟨S_, .i32⟩ : BufTy).Contents (Elt F) → (⟨S2400000, .i32⟩ : BufTy).Contents (Elt F)) (constantI S_ 32 150000#32)))
            cols))))

/-- The sum of the two affine maps before the rectifier: `(side · Wg + bg) + ((x ∘ side) · Wb + bb)`, the biases laid along every row. -/
def pre (x side : (⟨S150000x64, .f32⟩ : BufTy).Contents (Elt F)) (Wg : (⟨S64x64, .f32⟩ : BufTy).Contents (Elt F)) (bg : (⟨S1x64, .f32⟩ : BufTy).Contents (Elt F))
    (Wb : (⟨S64x64, .f32⟩ : BufTy).Contents (Elt F)) (bb : (⟨S1x64, .f32⟩ : BufTy).Contents (Elt F)) : (⟨S150000x64, .f32⟩ : BufTy).Contents (Elt F) :=
  (addf : (⟨S150000x64, .f32⟩ : BufTy).Contents (Elt F) → (⟨S150000x64, .f32⟩ : BufTy).Contents (Elt F) → (⟨S150000x64, .f32⟩ : BufTy).Contents (Elt F))
    ((addf : (⟨S150000x64, .f32⟩ : BufTy).Contents (Elt F) → (⟨S150000x64, .f32⟩ : BufTy).Contents (Elt F) → (⟨S150000x64, .f32⟩ : BufTy).Contents (Elt F))
      (Host.dotGeneral dot_S150000x64_S64x64_S150000x64_1_0_0_1_n_n none side Wg)
      ((broadcastInDim S150000x64 ![0, 1] bcast_S1x64_S150000x64_0_1 : (⟨S1x64, .f32⟩ : BufTy).Contents (Elt F) → (⟨S150000x64, .f32⟩ : BufTy).Contents (Elt F)) bg))
    ((addf : (⟨S150000x64, .f32⟩ : BufTy).Contents (Elt F) → (⟨S150000x64, .f32⟩ : BufTy).Contents (Elt F) → (⟨S150000x64, .f32⟩ : BufTy).Contents (Elt F))
      (Host.dotGeneral dot_S150000x64_S64x64_S150000x64_1_0_0_1_n_n none
        ((mulf : (⟨S150000x64, .f32⟩ : BufTy).Contents (Elt F) → (⟨S150000x64, .f32⟩ : BufTy).Contents (Elt F) → (⟨S150000x64, .f32⟩ : BufTy).Contents (Elt F)) x side) Wb)
      ((broadcastInDim S150000x64 ![0, 1] bcast_S1x64_S150000x64_0_1 : (⟨S1x64, .f32⟩ : BufTy).Contents (Elt F) → (⟨S150000x64, .f32⟩ : BufTy).Contents (Elt F)) bb))

/-- The leaky rectifier with slope `0.2`, as the outlined function spells it: where the entry is at least zero the entry, elsewhere the slope times it. -/
def leaky (p : (⟨S150000x64, .f32⟩ : BufTy).Contents (Elt F)) : (⟨S150000x64, .f32⟩ : BufTy).Contents (Elt F) :=
  (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F))
    ((cmpf .oge : (⟨S150000x64, .f32⟩ : BufTy).Contents (Elt F) → (⟨S150000x64, .f32⟩ : BufTy).Contents (Elt F) → (⟨S150000x64, .i1⟩ : BufTy).Contents (Elt F)) p
      ((broadcastInDim S150000x64 ![] bcast_S_S150000x64 : (⟨S_, .f32⟩ : BufTy).Contents (Elt F) → (⟨S150000x64, .f32⟩ : BufTy).Contents (Elt F)) (constant S_ .f32 0x00000000#32)))
    p
    ((mulf : (⟨S150000x64, .f32⟩ : BufTy).Contents (Elt F) → (⟨S150000x64, .f32⟩ : BufTy).Contents (Elt F) → (⟨S150000x64, .f32⟩ : BufTy).Contents (Elt F))
      ((broadcastInDim S150000x64 ![] bcast_S_S150000x64 : (⟨S_, .f32⟩ : BufTy).Contents (Elt F) → (⟨S150000x64, .f32⟩ : BufTy).Contents (Elt F))
        ((id : (⟨S_, .f32⟩ : BufTy).Contents (Elt F) → (⟨S_, .f32⟩ : BufTy).Contents (Elt F)) (constant S_ .f32 0x3E4CCCCD#32)))
      p)

/-- Each row divided by the larger of its Euclidean norm and the small constant. -/
def normalize (a : (⟨S150000x64, .f32⟩ : BufTy).Contents (Elt F)) : (⟨S150000x64, .f32⟩ : BufTy).Contents (Elt F) :=
  (Host.divf : (⟨S150000x64, .f32⟩ : BufTy).Contents (Elt F) → (⟨S150000x64, .f32⟩ : BufTy).Contents (Elt F) → (⟨S150000x64, .f32⟩ : BufTy).Contents (Elt F)) a
    ((broadcastInDim S150000x64 ![0, 1] bcast_S150000x1_S150000x64_0_1 : (⟨S150000x1, .f32⟩ : BufTy).Contents (Elt F) → (⟨S150000x64, .f32⟩ : BufTy).Contents (Elt F))
      ((maximumf : (⟨S150000x1, .f32⟩ : BufTy).Contents (Elt F) → (⟨S150000x1, .f32⟩ : BufTy).Contents (Elt F) → (⟨S150000x1, .f32⟩ : BufTy).Contents (Elt F))
        ((Host.sqrt : (⟨S150000x1, .f32⟩ : BufTy).Contents (Elt F) → (⟨S150000x1, .f32⟩ : BufTy).Contents (Elt F))
          ((broadcastInDim S150000x1 ![0] bcast_S150000_S150000x1_0 : (⟨S150000, .f32⟩ : BufTy).Contents (Elt F) → (⟨S150000x1, .f32⟩ : BufTy).Contents (Elt F))
            (Host.reduceAdd
              ((mulf : (⟨S150000x64, .f32⟩ : BufTy).Contents (Elt F) → (⟨S150000x64, .f32⟩ : BufTy).Contents (Elt F) → (⟨S150000x64, .f32⟩ : BufTy).Contents (Elt F)) a a)
              (constant S_ .f32 0x00000000#32) reducesTo_S150000x64_S150000_d1 h_S_)))
        ((broadcastInDim S150000x1 ![] bcast_S_S150000x1 : (⟨S_, .f32⟩ : BufTy).Contents (Elt F) → (⟨S150000x1, .f32⟩ : BufTy).Contents (Elt F)) (constant S_ .f32 0x2B8CBCCC#32))))

/-- One layer: the normalised rectified sum of the two affine maps. -/
def layer (x side : (⟨S150000x64, .f32⟩ : BufTy).Contents (Elt F)) (Wg : (⟨S64x64, .f32⟩ : BufTy).Contents (Elt F)) (bg : (⟨S1x64, .f32⟩ : BufTy).Contents (Elt F))
    (Wb : (⟨S64x64, .f32⟩ : BufTy).Contents (Elt F)) (bb : (⟨S1x64, .f32⟩ : BufTy).Contents (Elt F)) : (⟨S150000x64, .f32⟩ : BufTy).Contents (Elt F) :=
  normalize (leaky (pre x side Wg bg Wb bb))

/-- A gather of whole rows of the stacked embeddings by an index vector, a negative index counted from the end. -/
def rowsOf (e : (⟨S150000x192, .f32⟩ : BufTy).Contents (Elt F)) (idx : (⟨S2048, .i32⟩ : BufTy).Contents (Elt F)) : (⟨S2048x192, .f32⟩ : BufTy).Contents (Elt F) :=
  Host.gather gather_S150000x192_S2048x1_S2048x192_1_0_n_n_0_1_1192 e
    ((broadcastInDim S2048x1 ![0] bcast_S2048_S2048x1_0 : (⟨S2048, .i32⟩ : BufTy).Contents (Elt F) → (⟨S2048x1, .i32⟩ : BufTy).Contents (Elt F))
      ((select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
        ((cmpi .slt : (⟨S2048, .i32⟩ : BufTy).Contents (Elt F) → (⟨S2048, .i32⟩ : BufTy).Contents (Elt F) → (⟨S2048, .i1⟩ : BufTy).Contents (Elt F)) idx
          ((broadcastInDim S2048 ![] bcast_S_S2048 : (⟨S_, .i32⟩ : BufTy).Contents (Elt F) → (⟨S2048, .i32⟩ : BufTy).Contents (Elt F)) (constantI S_ 32 0#32)))
        ((addi : (⟨S2048, .i32⟩ : BufTy).Contents (Elt F) → (⟨S2048, .i32⟩ : BufTy).Contents (Elt F) → (⟨S2048, .i32⟩ : BufTy).Contents (Elt F)) idx
          ((broadcastInDim S2048 ![] bcast_S_S2048 : (⟨S_, .i32⟩ : BufTy).Contents (Elt F) → (⟨S2048, .i32⟩ : BufTy).Contents (Elt F)) (constantI S_ 32 150000#32)))
        idx))

/-- The scores: the three embeddings side by side, the users' rows times the items' rows (an item's row is `100000` further down), summed along each row. -/
def tail (x e1 e2 : (⟨S150000x64, .f32⟩ : BufTy).Contents (Elt F)) (users items : (⟨S2048, .i32⟩ : BufTy).Contents (Elt F)) : (⟨S2048, .f32⟩ : BufTy).Contents (Elt F) :=
  Host.reduceAdd
    ((mulf : (⟨S2048x192, .f32⟩ : BufTy).Contents (Elt F) → (⟨S2048x192, .f32⟩ : BufTy).Contents (Elt F) → (⟨S2048x192, .f32⟩ : BufTy).Contents (Elt F))
      (rowsOf (concatenate S150000x192 1 [⟨S150000x64, x⟩, ⟨S150000x64, e1⟩, ⟨S150000x64, e2⟩] concatenates_S150000x64_S150000x64_S150000x64_S150000x192_d1) users)
      (rowsOf (concatenate S150000x192 1 [⟨S150000x64, x⟩, ⟨S150000x64, e1⟩, ⟨S150000x64, e2⟩] concatenates_S150000x64_S150000x64_S150000x64_S150000x192_d1)
        ((addi : (⟨S2048, .i32⟩ : BufTy).Contents (Elt F) → (⟨S2048, .i32⟩ : BufTy).Contents (Elt F) → (⟨S2048, .i32⟩ : BufTy).Contents (Elt F))
          ((broadcastInDim S2048 ![] bcast_S_S2048 : (⟨S_, .i32⟩ : BufTy).Contents (Elt F) → (⟨S2048, .i32⟩ : BufTy).Contents (Elt F)) (constantI S_ 32 100000#32)) items)))
    (constant S_ .f32 0x00000000#32) reducesTo_S2048x192_S2048_d1 h_S_

/-- The whole program: two layers over the aggregated embeddings, then the scores. -/
def out (rows cols : (⟨S2400000, .i32⟩ : BufTy).Contents (Elt F)) (vals : (⟨S2400000, .f32⟩ : BufTy).Contents (Elt F))
    (x : (⟨S150000x64, .f32⟩ : BufTy).Contents (Elt F))
    (W0 : (⟨S64x64, .f32⟩ : BufTy).Contents (Elt F)) (b0 : (⟨S1x64, .f32⟩ : BufTy).Contents (Elt F)) (W0' : (⟨S64x64, .f32⟩ : BufTy).Contents (Elt F)) (b0' : (⟨S1x64, .f32⟩ : BufTy).Contents (Elt F))
    (W1 : (⟨S64x64, .f32⟩ : BufTy).Contents (Elt F)) (b1 : (⟨S1x64, .f32⟩ : BufTy).Contents (Elt F)) (W1' : (⟨S64x64, .f32⟩ : BufTy).Contents (Elt F)) (b1' : (⟨S1x64, .f32⟩ : BufTy).Contents (Elt F))
    (users items : (⟨S2048, .i32⟩ : BufTy).Contents (Elt F)) : (⟨S2048, .f32⟩ : BufTy).Contents (Elt F) :=
  tail x (layer x (agg rows cols vals x) W0 b0 W0' b0')
    (layer (layer x (agg rows cols vals x) W0 b0 W0' b0') (agg rows cols vals (layer x (agg rows cols vals x) W0 b0 W0' b0')) W1 b1 W1' b1')
    users items

end Cert.ReferenceIdeal.Terms

end
-- ==== Proof.KernelIdealHost.lean ====
/-
  The kernel program's three host stretches read as the reference's named stages. The first two are each the sparse
  aggregation (a gather of rows by the wrapped column indices, a scaling by the edge weights, a scatter-add by the row
  indices into zeros) of an embedding; the last is the scoring tail (the three embeddings side by side, two gathers of
  rows, the sum over each row of their product). Both programs print the same operations over records of the same
  fields, so each stretch's result is the stage applied to the buffers the stretch reads. Beside them, the buffers a
  stretch or a region leaves as it found them. Everything here holds at any float instance.
-/
import proofs.«125295_j75127567941781_1_alg».proof.Proof.KernelIdealRun
import proofs.«125295_j75127567941781_1_alg».proof.Proof.RefTerms
import Idealize.ShloMosaic.Lib.StableHlo.Run

set_option maxRecDepth 16384

noncomputable section

namespace Cert.KernelIdeal.Host

open Cert.KernelIdeal Cert.KernelIdeal.Gen Cert.KernelIdeal.Run
open Idealize.ShloMosaic Idealize.ShloMosaic.TcCoe Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

/-! # The two programs' records are the same records -/

theorem gather_rows_eq : Cert.KernelIdeal.gather_S150000x64_S2400000x1_S2400000x64_1_0_n_n_0_1_164
    = Cert.ReferenceIdeal.gather_S150000x64_S2400000x1_S2400000x64_1_0_n_n_0_1_164 := rfl
theorem scatter_rows_eq : Cert.KernelIdeal.scatter_S150000x64_S2400000x1_S2400000x64_1_0_0_1
    = Cert.ReferenceIdeal.scatter_S150000x64_S2400000x1_S2400000x64_1_0_0_1 := rfl
theorem gather_wide_eq : Cert.KernelIdeal.gather_S150000x192_S2048x1_S2048x192_1_0_n_n_0_1_1192
    = Cert.ReferenceIdeal.gather_S150000x192_S2048x1_S2048x192_1_0_n_n_0_1_1192 := rfl

variable (m : (ℓ : Loc nD τ sig) → Buf (Elt F) ℓ) (ρ : Dev nD → PrngReg)

/-! # The buffers a stretch or a region leaves as it found them -/

theorem W1_arg3 (c : Dev nD) : W1 m ρ c (Proc.devRef .tc main_arg3) = m ((c : Thread nD τ).loc main_arg3) :=
  (W1_of m ρ c main_arg3 (by decide)).trans rfl
theorem W1_arg4 (c : Dev nD) : W1 m ρ c (Proc.devRef .tc main_arg4) = m ((c : Thread nD τ).loc main_arg4) :=
  (W1_of m ρ c main_arg4 (by decide)).trans rfl
theorem W1_arg5 (c : Dev nD) : W1 m ρ c (Proc.devRef .tc main_arg5) = m ((c : Thread nD τ).loc main_arg5) :=
  (W1_of m ρ c main_arg5 (by decide)).trans rfl
theorem W1_arg6 (c : Dev nD) : W1 m ρ c (Proc.devRef .tc main_arg6) = m ((c : Thread nD τ).loc main_arg6) :=
  (W1_of m ρ c main_arg6 (by decide)).trans rfl
theorem W1_arg7 (c : Dev nD) : W1 m ρ c (Proc.devRef .tc main_arg7) = m ((c : Thread nD τ).loc main_arg7) :=
  (W1_of m ρ c main_arg7 (by decide)).trans rfl

theorem W2_arg0 (c : Dev nD) : W2 m ρ c (Proc.devRef .tc main_arg0) = m ((c : Thread nD τ).loc main_arg0) :=
  (W2_of_ne m ρ c main_arg0 (by decide)).trans <| (W1_of m ρ c main_arg0 (by decide)).trans rfl
theorem W2_arg1 (c : Dev nD) : W2 m ρ c (Proc.devRef .tc main_arg1) = m ((c : Thread nD τ).loc main_arg1) :=
  (W2_of_ne m ρ c main_arg1 (by decide)).trans <| (W1_of m ρ c main_arg1 (by decide)).trans rfl
theorem W2_arg2 (c : Dev nD) : W2 m ρ c (Proc.devRef .tc main_arg2) = m ((c : Thread nD τ).loc main_arg2) :=
  (W2_of_ne m ρ c main_arg2 (by decide)).trans <| (W1_of m ρ c main_arg2 (by decide)).trans rfl

theorem W3_arg0 (c : Dev nD) : W3 m ρ c (Proc.devRef .tc main_arg0) = m ((c : Thread nD τ).loc main_arg0) :=
  (W3_of m ρ c main_arg0 (by decide)).trans (W2_arg0 m ρ c)
theorem W3_arg1 (c : Dev nD) : W3 m ρ c (Proc.devRef .tc main_arg1) = m ((c : Thread nD τ).loc main_arg1) :=
  (W3_of m ρ c main_arg1 (by decide)).trans (W2_arg1 m ρ c)
theorem W3_arg2 (c : Dev nD) : W3 m ρ c (Proc.devRef .tc main_arg2) = m ((c : Thread nD τ).loc main_arg2) :=
  (W3_of m ρ c main_arg2 (by decide)).trans (W2_arg2 m ρ c)
theorem W3_arg8 (c : Dev nD) : W3 m ρ c (Proc.devRef .tc main_arg8) = m ((c : Thread nD τ).loc main_arg8) :=
  (W3_of m ρ c main_arg8 (by decide)).trans <| (W2_of_ne m ρ c main_arg8 (by decide)).trans <| (W1_of m ρ c main_arg8 (by decide)).trans rfl
theorem W3_arg9 (c : Dev nD) : W3 m ρ c (Proc.devRef .tc main_arg9) = m ((c : Thread nD τ).loc main_arg9) :=
  (W3_of m ρ c main_arg9 (by decide)).trans <| (W2_of_ne m ρ c main_arg9 (by decide)).trans <| (W1_of m ρ c main_arg9 (by decide)).trans rfl
theorem W3_arg10 (c : Dev nD) : W3 m ρ c (Proc.devRef .tc main_arg10) = m ((c : Thread nD τ).loc main_arg10) :=
  (W3_of m ρ c main_arg10 (by decide)).trans <| (W2_of_ne m ρ c main_arg10 (by decide)).trans <| (W1_of m ρ c main_arg10 (by decide)).trans rfl
theorem W3_arg11 (c : Dev nD) : W3 m ρ c (Proc.devRef .tc main_arg11) = m ((c : Thread nD τ).loc main_arg11) :=
  (W3_of m ρ c main_arg11 (by decide)).trans <| (W2_of_ne m ρ c main_arg11 (by decide)).trans <| (W1_of m ρ c main_arg11 (by decide)).trans rfl
theorem W3_v13 (c : Dev nD) : W3 m ρ c (Proc.devRef .tc main_v13) = W2 m ρ c (Proc.devRef .tc main_v13) :=
  W3_of m ρ c main_v13 (by decide)

theorem W4_v13 (c : Dev nD) : W4 m ρ c (Proc.devRef .tc main_v13) = W2 m ρ c (Proc.devRef .tc main_v13) :=
  (W4_in m ρ c 0 rfl).trans (W3_v13 m ρ c)
theorem W4_arg3 (c : Dev nD) : W4 m ρ c (Proc.devRef .tc main_arg3) = m ((c : Thread nD τ).loc main_arg3) :=
  (W4_of_ne m ρ c main_arg3 (by decide)).trans <| (W3_of m ρ c main_arg3 (by decide)).trans <| (W2_in m ρ c 0 rfl).trans <| W1_arg3 m ρ c
theorem W4_arg12 (c : Dev nD) : W4 m ρ c (Proc.devRef .tc main_arg12) = m ((c : Thread nD τ).loc main_arg12) :=
  (W4_of_ne m ρ c main_arg12 (by decide)).trans <| (W3_of m ρ c main_arg12 (by decide)).trans <| (W2_of_ne m ρ c main_arg12 (by decide)).trans <| (W1_of m ρ c main_arg12 (by decide)).trans rfl
theorem W4_arg13 (c : Dev nD) : W4 m ρ c (Proc.devRef .tc main_arg13) = m ((c : Thread nD τ).loc main_arg13) :=
  (W4_of_ne m ρ c main_arg13 (by decide)).trans <| (W3_of m ρ c main_arg13 (by decide)).trans <| (W2_of_ne m ρ c main_arg13 (by decide)).trans <| (W1_of m ρ c main_arg13 (by decide)).trans rfl

/-! # The three stretches as the reference's stages -/

attribute [local irreducible] Host.gather Host.scatterAdd Host.reduceAdd concatenate in
/-- The first stretch leaves in `%12` the neighbourhood sum of the input embedding. -/
theorem side0_eq (c : Dev nD) : W1 m ρ c (Proc.devRef .tc main_v12)
    = Cert.ReferenceIdeal.Terms.agg (F := F) (m ((c : Thread nD τ).loc main_arg0)) (m ((c : Thread nD τ).loc main_arg1))
        (m ((c : Thread nD τ).loc main_arg2)) (m ((c : Thread nD τ).loc main_arg3)) := by
  show StableHlo.after hostOps0 (W0 m ρ c) (Proc.devRef .tc main_v12) = _
  after_results_simp
  unfold Cert.ReferenceIdeal.Terms.agg
  rw [gather_rows_eq, scatter_rows_eq]

attribute [local irreducible] Host.gather Host.scatterAdd Host.reduceAdd concatenate in
/-- The second stretch leaves in `%26` the neighbourhood sum of the first layer's embedding. -/
theorem side1_eq (c : Dev nD) : W3 m ρ c (Proc.devRef .tc main_v26)
    = Cert.ReferenceIdeal.Terms.agg (F := F) (m ((c : Thread nD τ).loc main_arg0)) (m ((c : Thread nD τ).loc main_arg1))
        (m ((c : Thread nD τ).loc main_arg2)) (W2 m ρ c (Proc.devRef .tc main_v13)) := by
  show StableHlo.after hostOps1 (W2 m ρ c) (Proc.devRef .tc main_v26) = _
  after_results_simp
  rw [W2_arg0, W2_arg1, W2_arg2]
  unfold Cert.ReferenceIdeal.Terms.agg
  rw [gather_rows_eq, scatter_rows_eq]

attribute [local irreducible] Host.gather Host.scatterAdd Host.reduceAdd concatenate in
/-- The last stretch leaves in `%46` the scores of the three embeddings side by side. -/
theorem score_eq (c : Dev nD) : W5 m ρ c (Proc.devRef .tc main_v46)
    = Cert.ReferenceIdeal.Terms.tail (F := F) (m ((c : Thread nD τ).loc main_arg3)) (W2 m ρ c (Proc.devRef .tc main_v13))
        (W4 m ρ c (Proc.devRef .tc main_v27)) (m ((c : Thread nD τ).loc main_arg12)) (m ((c : Thread nD τ).loc main_arg13)) := by
  show StableHlo.after hostOps2 (W4 m ρ c) (Proc.devRef .tc main_v46) = _
  after_results_simp
  have e0 : W4 m ρ c (Proc.devRef .tc ((![main_arg3, main_v13, main_v27] : Fin 3 → Ref sig .tc) 0)) = m ((c : Thread nD τ).loc main_arg3) := W4_arg3 m ρ c
  have e1 : W4 m ρ c (Proc.devRef .tc ((![main_arg3, main_v13, main_v27] : Fin 3 → Ref sig .tc) 1)) = W2 m ρ c (Proc.devRef .tc main_v13) := W4_v13 m ρ c
  have e2 : W4 m ρ c (Proc.devRef .tc ((![main_arg3, main_v13, main_v27] : Fin 3 → Ref sig .tc) 2)) = W4 m ρ c (Proc.devRef .tc main_v27) := rfl
  rw [e0, e1, e2, W4_arg12, W4_arg13]
  unfold Cert.ReferenceIdeal.Terms.tail Cert.ReferenceIdeal.Terms.rowsOf
  rw [gather_wide_eq]

end Cert.KernelIdeal.Host

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibRowOps.lean ====
/-
  Reductions along the rows of an [R, L] array, and the column they leave, read at an index over the extended reals.
  A kernel reduces a block's rows with a lane reduction into an [R] vector, casts it to a column [R, 1] and broadcasts the
  column back over the L lanes; a host program reduces the array over axis 1. Each spelling is read here at a row p (and a
  lane c) as a fold or a sum over the row's entries x (p, k), for any extents.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {R L : Nat} {φ : FTy}

/-- The source index over the reduced index p with k inserted on axis 1 is (p, k). -/
theorem lift_row (h : Shape.Reduces ⟨2, ![R, L]⟩ [1] ⟨1, ![R]⟩) (p : Fin R) (k : Fin L) :
    h.lift (ix1 p) k = ix2 p k := by
  funext a
  apply Fin.ext
  match a with
  | ⟨0, _⟩ => rfl
  | ⟨1, _⟩ => rfl

/-- A lane maximum of an [R, L] block at row p: the fold of max from the accumulator's value over the row. -/
theorem laneMax_apply (x : FVec Ideal ⟨2, ![R, L]⟩ φ) (acc : BitVec φ.bits)
    (h : Shape.Reduces ⟨2, ![R, L]⟩ [1] ⟨1, ![R]⟩) (hφ : FKind.Formats φ) (hacc : acc = FKind.maximumf.neutral φ hφ)
    (p : Fin R) :
    multiReduction .maximumf [1] ⟨1, ![R]⟩ x acc h hφ hacc (ix1 p)
      = (Finset.univ : Finset (Fin L)).fold max (Ideal.ofBits φ acc) (fun k => x (ix2 p k)) := by
  rw [Ideal.multiReduction_maximumf_single]
  have e : (x ∘ h.lift (ix1 p)) = fun k : Fin ((⟨2, ![R, L]⟩ : Shape).size 1) => x (ix2 p k) :=
    funext fun k => congrArg x (lift_row h p k)
  rw [e]
  rfl

/-- A lane sum of an [R, L] block at row p: the sum of the row. -/
theorem laneSum_apply (x : FVec Ideal ⟨2, ![R, L]⟩ φ) (acc : BitVec φ.bits)
    (h : Shape.Reduces ⟨2, ![R, L]⟩ [1] ⟨1, ![R]⟩) (hφ : FKind.Formats φ) (hacc : acc = FKind.add.neutral φ hφ)
    (p : Fin R) :
    multiReduction .add [1] ⟨1, ![R]⟩ x acc h hφ hacc (ix1 p) = ∑ k : Fin L, x (ix2 p k) := by
  rw [Ideal.multiReduction_add_single]
  show ∑ k : Fin L, x (h.lift (ix1 p) k) = _
  exact Finset.sum_congr rfl fun k _ => congrArg x (lift_row h p k)

/-- The host's maximum over axis 1 at row p: the fold of max from the initial value over the row. -/
theorem hostRowMax_apply {u : Shape} (x : (⟨2, ![R, L]⟩ : Shape).Idx → Ideal φ) (init : u.Idx → Ideal φ)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduce FloatOps.maximumf x init h' hu (ix1 p)
      = (Finset.univ : Finset (Fin L)).fold max (init (Shape.Idx.first hu)) (fun k => x (ix2 p k)) := by
  rw [Host.reduce_eq_fold_single FloatOps.maximumf x init h' h hu]
  have e : (x ∘ h.lift (ix1 p)) = fun k : Fin ((⟨2, ![R, L]⟩ : Shape).size 1) => x (ix2 p k) :=
    funext fun k => congrArg x (lift_row h p k)
  rw [e]
  rfl

/-- An [R] vector cast to a column [R, 1], at (p, 0). -/
theorem shapeCast_column_apply {α : Type} (v : (⟨1, ![R]⟩ : Shape).Idx → α)
    (h : (⟨1, ![R]⟩ : Shape).ShapeCasts ⟨2, ![R, 1]⟩) (p : Fin R) (z : Fin 1) :
    shapeCast ⟨2, ![R, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A column [R, 1] broadcast over L lanes, at (p, c): the column's entry at row p. -/
theorem broadcastTo_column_apply {α : Type} (v : (⟨2, ![R, 1]⟩ : Shape).Idx → α)
    (h : (⟨2, ![R, 1]⟩ : Shape).Broadcasts ⟨2, ![R, L]⟩) (p : Fin R) (c : Fin L) :
    broadcastTo ⟨2, ![R, L]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- A one-entry array [1, 1] broadcast to [R, L], at any index: its entry. -/
theorem broadcastTo_one_apply {α : Type} (v : (⟨2, ![1, 1]⟩ : Shape).Idx → α)
    (h : (⟨2, ![1, 1]⟩ : Shape).Broadcasts ⟨2, ![R, L]⟩) (p : Fin R) (c : Fin L) :
    broadcastTo ⟨2, ![R, L]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib

end
-- ==== Proof.LayerInst.lean ====
/-
  The dense layer in its two spellings. First, for any extents: the broadcasts and the host's row sum read at an index,
  the rectifier as a comparison and a choice, and the three stages of the layer (the two affine maps, the rectifier, the
  division of each row by the larger of its norm and the floor) as a kernel block writes them and as the host program
  writes them, each read at an entry as the layer's formula; composed, either spelling is the layer. Then the three
  instances at this program's extents: the host's layer over the [150000, 64] arrays, and the two kernels' blocks over a
  [3000, 64] block.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import proofs.«125295_j75127567941781_1_alg».proof.KernelIdeal
import proofs.«125295_j75127567941781_1_alg».proof.ReferenceIdeal
import proofs.«125295_j75127567941781_1_alg».proof.Proof.Gen.KernelIdeal.Skeleton
import proofs.«125295_j75127567941781_1_alg».proof.Proof.Gen.ReferenceIdeal
import proofs.«125295_j75127567941781_1_alg».proof.Proof.RefTerms
import proofs.«125295_j75127567941781_1_alg».proof.Proof.LibDotSum
import proofs.«125295_j75127567941781_1_alg».proof.Proof.LibRowOps
import proofs.«125295_j75127567941781_1_alg».proof.Proof.LibNgcfLayer

noncomputable section

namespace Cert.Lib

open Idealize.ShloMosaic Idealize.ShloMosaic.ValueIdx

variable {N D E : Nat}

/-! ## Broadcasts and the host's row sum, read at an index -/

section ReadAtIndex

variable {R L : Nat}

/-- An [R] vector laid out as a column [R, 1] by a broadcast along axis 0, at (p, 0): the vector's entry p. -/
theorem broadcastInDim_toColumn_apply {α : Type} (v : (⟨1, ![R]⟩ : Shape).Idx → α)
    (h : (⟨1, ![R]⟩ : Shape).BroadcastsInDim ⟨2, ![R, 1]⟩ ![0]) (p : Fin R) (z : Fin 1) :
    broadcastInDim ⟨2, ![R, 1]⟩ ![0] h v (ix2 p z) = v (ix1 p) := by
  refine broadcastInDim_apply ![0] h v (ix2 p z) (ix1 p) fun a => ?_
  match a with
  | ⟨0, _⟩ =>
    show p.val = if R = 1 then 0 else p.val
    split
    · have := p.isLt; omega
    · rfl

/-- A column [R, 1] broadcast over L columns, at (p, c): the column's entry at row p. -/
theorem broadcastInDim_column_apply {α : Type} (v : (⟨2, ![R, 1]⟩ : Shape).Idx → α)
    (h : (⟨2, ![R, 1]⟩ : Shape).BroadcastsInDim ⟨2, ![R, L]⟩ ![0, 1]) (p : Fin R) (c : Fin L) :
    broadcastInDim ⟨2, ![R, L]⟩ ![0, 1] h v (ix2 p c) = v (ix2 p (0 : Fin 1)) := by
  refine broadcastInDim_apply ![0, 1] h v (ix2 p c) (ix2 p (0 : Fin 1)) fun a => ?_
  match a with
  | ⟨0, _⟩ =>
    show p.val = if R = 1 then 0 else p.val
    split
    · have := p.isLt; omega
    · rfl
  | ⟨1, _⟩ => rfl

/-- The host's sum over axis 1 at row p: the initial value plus the sum of the row. -/
theorem hostRowSum_apply {φ : FTy} {u : Shape} (x : FVec Ideal ⟨2, ![R, L]⟩ φ) (init : u.Idx → Ideal φ)
    (h' : Shape.ReducesTo ⟨2, ![R, L]⟩ [1] ⟨1, ![R]⟩) (hu : 0 < u.numel) (p : Fin R) :
    Host.reduceAdd x init h' hu (ix1 p) = init (Shape.Idx.first hu) + ∑ k : Fin L, x (ix2 p k) := by
  have h : Shape.Reduces ⟨2, ![R, L]⟩ [1] ⟨1, ![R]⟩ := ⟨h'.1, Nat.one_pos, h'.2⟩
  rw [hostReduceAdd_apply, Ideal.hostReduceAdd_single h' h]
  show _ + ∑ k : Fin L, x (h.lift (ix1 p) k) = _
  exact congrArg (_ + ·) (Finset.sum_congr rfl fun k _ => congrArg x (lift_row h p k))

end ReadAtIndex

/-! ## The rectifier as a comparison and a choice -/

/-- The choice between a and s · a on the comparison of a with the zero word is the rectifier's case split. -/
theorem select_oge_zero (a s : EReal) :
    Scalar.select (Ideal.cmp .oge a (Ideal.ofBits .f32 0x00000000#32)) a (s * a) = if 0 ≤ a then a else s * a := by
  rw [Ideal.ofBits_zero_f32]
  unfold Scalar.select Ideal.cmp
  by_cases h : (0 : EReal) ≤ a <;> simp [h]

/-! ## The rectifier over an array, in the two spellings -/

/-- The block's rectifier: the comparison against a splat of the zero word, the choice, the slope as a splat. -/
def kernelAct {s : Shape} (pre : FVec Ideal s .f32) : FVec Ideal s .f32 :=
  select (cmpf .oge pre (broadcast s (Scalar.ofBits (F := Ideal) .f32 0x00000000#32))) pre
    (mulf (broadcast s (Scalar.ofBits (F := Ideal) .f32 0x3E4CCCCD#32)) pre)

theorem kernelAct_apply {s : Shape} (pre : FVec Ideal s .f32) (i : s.Idx) : kernelAct pre i = leakyOf (pre i) :=
  select_oge_zero (pre i) (Ideal.ofBits .f32 0x3E4CCCCD#32)

/-- The host's rectifier: the same with the two words as scalars broadcast to the array's shape. -/
def hostAct {s : Shape} (hb : (⟨0, ![]⟩ : Shape).BroadcastsInDim s ![]) (pre : FVec Ideal s .f32) : FVec Ideal s .f32 :=
  select (cmpf .oge pre (broadcastInDim s ![] hb (constant (F := Ideal) ⟨0, ![]⟩ .f32 0x00000000#32))) pre
    (mulf (broadcastInDim s ![] hb (id (constant (F := Ideal) ⟨0, ![]⟩ .f32 0x3E4CCCCD#32))) pre)

theorem hostAct_apply {s : Shape} (hb : (⟨0, ![]⟩ : Shape).BroadcastsInDim s ![]) (pre : FVec Ideal s .f32) (i : s.Idx) :
    hostAct hb pre i = leakyOf (pre i) := by
  unfold hostAct
  rw [select_apply, cmpf_apply, mulf_apply, broadcastInDim_scalar_apply, broadcastInDim_scalar_apply]
  exact select_oge_zero (pre i) (Ideal.ofBits .f32 0x3E4CCCCD#32)

/-! ## The two affine maps, in the two spellings -/

section Pre

variable (d : DotDims ⟨2, ![N, D]⟩ ⟨2, ![D, E]⟩ ⟨2, ![N, E]⟩)
  (hlc : d.lhsContracting = [1]) (hrc : d.rhsContracting = [0])
  (hln : d.lhsNonContracting = [0]) (hrn : d.rhsNonContracting = [1])
  (hlb : d.lhsBatch = []) (hrb : d.rhsBatch = [])

/-- The block's: two products into zero accumulators, their operands narrowed (the identity here), each with its
    bias row broadcast down the rows. -/
def kernelPre (ht : FTy.bits .bf16 < FTy.bits .f32) (hb : (⟨2, ![1, E]⟩ : Shape).Broadcasts ⟨2, ![N, E]⟩)
    (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) : FVec Ideal ⟨2, ![N, E]⟩ .f32 :=
  addf
    (addf (matmul d none (truncf .bf16 side ht) (truncf .bf16 Wg ht) (constant (F := Ideal) ⟨2, ![N, E]⟩ .f32 0x00000000#32))
      (broadcastTo ⟨2, ![N, E]⟩ bg hb))
    (addf (matmul d none (truncf .bf16 (mulf x side) ht) (truncf .bf16 Wb ht) (constant (F := Ideal) ⟨2, ![N, E]⟩ .f32 0x00000000#32))
      (broadcastTo ⟨2, ![N, E]⟩ bb hb))

include hlc hrc hln hrn hlb hrb in
theorem kernelPre_apply (ht : FTy.bits .bf16 < FTy.bits .f32) (hb : (⟨2, ![1, E]⟩ : Shape).Broadcasts ⟨2, ![N, E]⟩)
    (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) (q : Fin E) :
    kernelPre d ht hb x side Wg bg Wb bb (ix2 p q) = preAt x side Wg bg Wb bb p q := by
  unfold kernelPre
  rw [addf_apply, addf_apply, addf_apply, matmul_rc_apply d hlc hrc hln hrn hlb hrb, matmul_rc_apply d hlc hrc hln hrn hlb hrb,
    broadcastTo_1b_ab_apply, broadcastTo_1b_ab_apply]
  rfl

/-- The host's: two products, each with its bias row broadcast down the rows. -/
def hostPre (hb : (⟨2, ![1, E]⟩ : Shape).BroadcastsInDim ⟨2, ![N, E]⟩ ![0, 1])
    (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) : FVec Ideal ⟨2, ![N, E]⟩ .f32 :=
  addf
    (addf (Host.dotGeneral (F := Ideal) d none side Wg) (broadcastInDim ⟨2, ![N, E]⟩ ![0, 1] hb bg))
    (addf (Host.dotGeneral (F := Ideal) d none (mulf x side) Wb) (broadcastInDim ⟨2, ![N, E]⟩ ![0, 1] hb bb))

include hlc hrc hln hrn hlb hrb in
theorem hostPre_apply (hb : (⟨2, ![1, E]⟩ : Shape).BroadcastsInDim ⟨2, ![N, E]⟩ ![0, 1])
    (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) (p : Fin N) (q : Fin E) :
    hostPre d hb x side Wg bg Wb bb (ix2 p q) = preAt x side Wg bg Wb bb p q := by
  unfold hostPre
  rw [addf_apply, addf_apply, addf_apply, dotGeneral_rc_apply d hlc hrc hln hrn hlb hrb, dotGeneral_rc_apply d hlc hrc hln hrn hlb hrb,
    broadcastInDim_oneRow_apply, broadcastInDim_oneRow_apply]
  rfl

end Pre

/-! ## The division of each row by the larger of its norm and the floor, in the two spellings -/

section Norm

/-- A square root over an array at an index is the extended reals' root of the entry, in the block's operation … -/
theorem sqrt_apply {s : Shape} {φ : FTy} (x : FVec Ideal s φ) (i : s.Idx) : sqrt x i = Ideal.sqrt (x i) := rfl
/-- … and in the host's. -/
theorem hostSqrt_apply {s : Shape} {φ : FTy} (x : FVec Ideal s φ) (i : s.Idx) : Host.sqrt x i = Ideal.sqrt (x i) := rfl

/-- The block's: the lane sum of the squares from the zero word, cast to a column, its root, the maximum with a splat
    of the floor, the column broadcast over the lanes, the quotient. -/
def kernelNorm (hred : Shape.Reduces ⟨2, ![N, E]⟩ [1] ⟨1, ![N]⟩) (hφ : FKind.Formats .f32)
    (hacc : (0x00000000#32 : BitVec (FTy.bits .f32)) = FKind.add.neutral .f32 hφ)
    (hsc : (⟨1, ![N]⟩ : Shape).ShapeCasts ⟨2, ![N, 1]⟩) (hb : (⟨2, ![N, 1]⟩ : Shape).Broadcasts ⟨2, ![N, E]⟩)
    (a : FVec Ideal ⟨2, ![N, E]⟩ .f32) : FVec Ideal ⟨2, ![N, E]⟩ .f32 :=
  divf a
    (broadcastTo ⟨2, ![N, E]⟩
      (maximumf
        (sqrt (shapeCast ⟨2, ![N, 1]⟩ (multiReduction (F := Ideal) .add [1] ⟨1, ![N]⟩ (mulf a a) 0x00000000#32 hred hφ hacc) hsc))
        (broadcast ⟨2, ![N, 1]⟩ (Scalar.ofBits (F := Ideal) .f32 0x2B8CBCCC#32)))
      hb)

theorem kernelNorm_apply (hred : Shape.Reduces ⟨2, ![N, E]⟩ [1] ⟨1, ![N]⟩) (hφ : FKind.Formats .f32)
    (hacc : (0x00000000#32 : BitVec (FTy.bits .f32)) = FKind.add.neutral .f32 hφ)
    (hsc : (⟨1, ![N]⟩ : Shape).ShapeCasts ⟨2, ![N, 1]⟩) (hb : (⟨2, ![N, 1]⟩ : Shape).Broadcasts ⟨2, ![N, E]⟩)
    (a : FVec Ideal ⟨2, ![N, E]⟩ .f32) (p : Fin N) (q : Fin E) :
    kernelNorm hred hφ hacc hsc hb a (ix2 p q)
      = Ideal.div (a (ix2 p q)) (max (Ideal.sqrt (∑ k : Fin E, a (ix2 p k) * a (ix2 p k))) normFloor) := by
  unfold kernelNorm
  rw [divf_apply, broadcastTo_column_apply, maximumf_apply, broadcast_apply, sqrt_apply, shapeCast_column_apply, laneSum_apply]
  rfl

/-- The host's: the sum over axis 1 of the squares from the zero scalar, laid out as a column, its root, the maximum
    with the floor broadcast to the column's shape, the column broadcast over the columns, the quotient. -/
def hostNorm (h' : Shape.ReducesTo ⟨2, ![N, E]⟩ [1] ⟨1, ![N]⟩) (hu : 0 < (⟨0, ![]⟩ : Shape).numel)
    (hcol : (⟨1, ![N]⟩ : Shape).BroadcastsInDim ⟨2, ![N, 1]⟩ ![0])
    (hfl : (⟨0, ![]⟩ : Shape).BroadcastsInDim ⟨2, ![N, 1]⟩ ![])
    (hb : (⟨2, ![N, 1]⟩ : Shape).BroadcastsInDim ⟨2, ![N, E]⟩ ![0, 1])
    (a : FVec Ideal ⟨2, ![N, E]⟩ .f32) : FVec Ideal ⟨2, ![N, E]⟩ .f32 :=
  Host.divf (F := Ideal) a
    (broadcastInDim ⟨2, ![N, E]⟩ ![0, 1] hb
      (maximumf
        (Host.sqrt (F := Ideal)
          (broadcastInDim ⟨2, ![N, 1]⟩ ![0] hcol
            (Host.reduceAdd (F := Ideal) (mulf a a) (constant (F := Ideal) ⟨0, ![]⟩ .f32 0x00000000#32) h' hu)))
        (broadcastInDim ⟨2, ![N, 1]⟩ ![] hfl (constant (F := Ideal) ⟨0, ![]⟩ .f32 0x2B8CBCCC#32))))

theorem hostNorm_apply (h' : Shape.ReducesTo ⟨2, ![N, E]⟩ [1] ⟨1, ![N]⟩) (hu : 0 < (⟨0, ![]⟩ : Shape).numel)
    (hcol : (⟨1, ![N]⟩ : Shape).BroadcastsInDim ⟨2, ![N, 1]⟩ ![0])
    (hfl : (⟨0, ![]⟩ : Shape).BroadcastsInDim ⟨2, ![N, 1]⟩ ![])
    (hb : (⟨2, ![N, 1]⟩ : Shape).BroadcastsInDim ⟨2, ![N, E]⟩ ![0, 1])
    (a : FVec Ideal ⟨2, ![N, E]⟩ .f32) (p : Fin N) (q : Fin E) :
    hostNorm h' hu hcol hfl hb a (ix2 p q)
      = Ideal.div (a (ix2 p q)) (max (Ideal.sqrt (∑ k : Fin E, a (ix2 p k) * a (ix2 p k))) normFloor) := by
  unfold hostNorm
  rw [hostDivf_apply, broadcastInDim_column_apply, maximumf_apply, broadcastInDim_scalar_apply, hostSqrt_apply,
    broadcastInDim_toColumn_apply, hostRowSum_apply, constant_apply, Ideal.ofBits_zero_f32, zero_add]
  rfl

end Norm

/-! ## The layer, in the two spellings -/

section Layer

variable (d : DotDims ⟨2, ![N, D]⟩ ⟨2, ![D, E]⟩ ⟨2, ![N, E]⟩)
  (hlc : d.lhsContracting = [1]) (hrc : d.rhsContracting = [0])
  (hln : d.lhsNonContracting = [0]) (hrn : d.rhsNonContracting = [1])
  (hlb : d.lhsBatch = []) (hrb : d.rhsBatch = [])

include hlc hrc hln hrn hlb hrb in
/-- The block's three stages composed are the layer. -/
theorem kernelLayer_eq (ht : FTy.bits .bf16 < FTy.bits .f32) (hb1 : (⟨2, ![1, E]⟩ : Shape).Broadcasts ⟨2, ![N, E]⟩)
    (hred : Shape.Reduces ⟨2, ![N, E]⟩ [1] ⟨1, ![N]⟩) (hφ : FKind.Formats .f32)
    (hacc : (0x00000000#32 : BitVec (FTy.bits .f32)) = FKind.add.neutral .f32 hφ)
    (hsc : (⟨1, ![N]⟩ : Shape).ShapeCasts ⟨2, ![N, 1]⟩) (hb2 : (⟨2, ![N, 1]⟩ : Shape).Broadcasts ⟨2, ![N, E]⟩)
    (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) :
    kernelNorm hred hφ hacc hsc hb2 (kernelAct (kernelPre d ht hb1 x side Wg bg Wb bb)) = layer x side Wg bg Wb bb := by
  funext i
  obtain ⟨p, q, rfl⟩ : ∃ (p : Fin N) (q : Fin E), i = ix2 p q := ⟨i 0, i 1, eq_ix2 i⟩
  have hact : ∀ k : Fin E, kernelAct (kernelPre d ht hb1 x side Wg bg Wb bb) (ix2 p k) = actAt x side Wg bg Wb bb p k :=
    fun k => by rw [kernelAct_apply, kernelPre_apply d hlc hrc hln hrn hlb hrb]; rfl
  rw [layer_apply, kernelNorm_apply, hact q, Finset.sum_congr rfl fun k _ => by rw [hact k]]
  rfl

include hlc hrc hln hrn hlb hrb in
/-- The host's three stages composed are the layer. -/
theorem hostLayer_eq (hb1 : (⟨2, ![1, E]⟩ : Shape).BroadcastsInDim ⟨2, ![N, E]⟩ ![0, 1])
    (hb0 : (⟨0, ![]⟩ : Shape).BroadcastsInDim ⟨2, ![N, E]⟩ ![])
    (h' : Shape.ReducesTo ⟨2, ![N, E]⟩ [1] ⟨1, ![N]⟩) (hu : 0 < (⟨0, ![]⟩ : Shape).numel)
    (hcol : (⟨1, ![N]⟩ : Shape).BroadcastsInDim ⟨2, ![N, 1]⟩ ![0])
    (hfl : (⟨0, ![]⟩ : Shape).BroadcastsInDim ⟨2, ![N, 1]⟩ ![])
    (hb2 : (⟨2, ![N, 1]⟩ : Shape).BroadcastsInDim ⟨2, ![N, E]⟩ ![0, 1])
    (x side : FVec Ideal ⟨2, ![N, D]⟩ .f32) (Wg : FVec Ideal ⟨2, ![D, E]⟩ .f32) (bg : FVec Ideal ⟨2, ![1, E]⟩ .f32)
    (Wb : FVec Ideal ⟨2, ![D, E]⟩ .f32) (bb : FVec Ideal ⟨2, ![1, E]⟩ .f32) :
    hostNorm h' hu hcol hfl hb2 (hostAct hb0 (hostPre d hb1 x side Wg bg Wb bb)) = layer x side Wg bg Wb bb := by
  funext i
  obtain ⟨p, q, rfl⟩ : ∃ (p : Fin N) (q : Fin E), i = ix2 p q := ⟨i 0, i 1, eq_ix2 i⟩
  have hact : ∀ k : Fin E, hostAct hb0 (hostPre d hb1 x side Wg bg Wb bb) (ix2 p k) = actAt x side Wg bg Wb bb p k :=
    fun k => by rw [hostAct_apply, hostPre_apply d hlc hrc hln hrn hlb hrb]; rfl
  rw [layer_apply, hostNorm_apply, hact q, Finset.sum_congr rfl fun k _ => by rw [hact k]]
  rfl

end Layer

end Cert.Lib

namespace Cert.LayerInst

open Idealize.ShloMosaic Idealize.ShloMosaic.ValueIdx

/-- The host's layer over the [150000, 64] arrays is the layer. -/
theorem refLayer_eq (x side : FVec Ideal Cert.ReferenceIdeal.S150000x64 .f32) (Wg : FVec Ideal Cert.ReferenceIdeal.S64x64 .f32)
    (bg : FVec Ideal Cert.ReferenceIdeal.S1x64 .f32) (Wb : FVec Ideal Cert.ReferenceIdeal.S64x64 .f32)
    (bb : FVec Ideal Cert.ReferenceIdeal.S1x64 .f32) :
    Cert.ReferenceIdeal.Terms.layer (F := Ideal) x side Wg bg Wb bb = Cert.Lib.layer x side Wg bg Wb bb := by
  have h : Cert.ReferenceIdeal.Terms.layer (F := Ideal) x side Wg bg Wb bb
      = Cert.Lib.hostNorm (N := 150000) (E := 64) Cert.ReferenceIdeal.Gen.reducesTo_S150000x64_S150000_d1 Cert.ReferenceIdeal.Gen.h_S_
          Cert.ReferenceIdeal.Gen.bcast_S150000_S150000x1_0 Cert.ReferenceIdeal.Gen.bcast_S_S150000x1
          Cert.ReferenceIdeal.Gen.bcast_S150000x1_S150000x64_0_1
          (Cert.Lib.hostAct Cert.ReferenceIdeal.Gen.bcast_S_S150000x64
            (Cert.Lib.hostPre (N := 150000) (D := 64) (E := 64) Cert.ReferenceIdeal.dot_S150000x64_S64x64_S150000x64_1_0_0_1_n_n
              Cert.ReferenceIdeal.Gen.bcast_S1x64_S150000x64_0_1 x side Wg bg Wb bb)) := rfl
  rw [h]
  exact Cert.Lib.hostLayer_eq _ rfl rfl rfl rfl rfl rfl _ _ _ _ _ _ _ x side Wg bg Wb bb

/-- The first kernel's block over a [3000, 64] block is the layer of its operands. -/
theorem k0_pay1_eq (v0 v1 : Vec Ideal Cert.KernelIdeal.S3000x64 .f32) (v3 v4 : Vec Ideal Cert.KernelIdeal.S1x64 .f32)
    (v5 v7 : Vec Ideal Cert.KernelIdeal.S64x64 .f32) :
    Cert.KernelIdeal.Gen.k0_pay1 (F := Ideal) v0 v1 v3 v4 v5 v7 = Cert.Lib.layer v0 v1 v5 v3 v7 v4 := by
  have h : Cert.KernelIdeal.Gen.k0_pay1 (F := Ideal) v0 v1 v3 v4 v5 v7
      = Cert.Lib.kernelNorm (N := 3000) (E := 64) Cert.KernelIdeal.Gen.reduces_S3000x64_S3000 (.inl rfl) rfl
          Cert.KernelIdeal.Gen.shapeCasts_S3000_S3000x1 Cert.KernelIdeal.Gen.broadcasts_S3000x1_S3000x64
          (Cert.Lib.kernelAct
            (Cert.Lib.kernelPre (N := 3000) (D := 64) (E := 64) Cert.KernelIdeal.dot_S3000x64_S64x64_S3000x64_1_0_0_1_n_n
              Cert.KernelIdeal.Gen.bitsLt_bf16_f32 Cert.KernelIdeal.Gen.broadcasts_S1x64_S3000x64 v0
              (shapeCast Cert.KernelIdeal.S3000x64 v1 Cert.KernelIdeal.Gen.shapeCasts_S3000x64_S3000x64) v5 v3 v7 v4)) := rfl
  rw [h, shapeCast_self]
  exact Cert.Lib.kernelLayer_eq _ rfl rfl rfl rfl rfl rfl _ _ _ _ _ _ _ v0 v1 v5 v3 v7 v4

/-- The second kernel's block over a [3000, 64] block is the layer of its operands. -/
theorem k1_pay1_eq (v0 v2 : Vec Ideal Cert.KernelIdeal.S3000x64 .f32) (v4 v5 : Vec Ideal Cert.KernelIdeal.S1x64 .f32)
    (v6 v8 : Vec Ideal Cert.KernelIdeal.S64x64 .f32) :
    Cert.KernelIdeal.Gen.k1_pay1 (F := Ideal) v0 v2 v4 v5 v6 v8 = Cert.Lib.layer v0 v2 v6 v4 v8 v5 := by
  have h : Cert.KernelIdeal.Gen.k1_pay1 (F := Ideal) v0 v2 v4 v5 v6 v8
      = Cert.Lib.kernelNorm (N := 3000) (E := 64) Cert.KernelIdeal.Gen.reduces_S3000x64_S3000 (.inl rfl) rfl
          Cert.KernelIdeal.Gen.shapeCasts_S3000_S3000x1 Cert.KernelIdeal.Gen.broadcasts_S3000x1_S3000x64
          (Cert.Lib.kernelAct
            (Cert.Lib.kernelPre (N := 3000) (D := 64) (E := 64) Cert.KernelIdeal.dot_S3000x64_S64x64_S3000x64_1_0_0_1_n_n
              Cert.KernelIdeal.Gen.bitsLt_bf16_f32 Cert.KernelIdeal.Gen.broadcasts_S1x64_S3000x64
              (shapeCast Cert.KernelIdeal.S3000x64 v0 Cert.KernelIdeal.Gen.shapeCasts_S3000x64_S3000x64)
              (shapeCast Cert.KernelIdeal.S3000x64 v2 Cert.KernelIdeal.Gen.shapeCasts_S3000x64_S3000x64) v6 v4 v8 v5)) := rfl
  rw [h, shapeCast_self, shapeCast_self]
  exact Cert.Lib.kernelLayer_eq _ rfl rfl rfl rfl rfl rfl _ _ _ _ _ _ _ v0 v2 v6 v4 v8 v5

end Cert.LayerInst

end
-- ==== Proof.RefRun.lean ====
/-
  The reference program's run. @main is a straight line of host operations once its two calls of the leaky
  rectifier are unfolded: each call is the rectifier's six operations over that call's own buffers followed by the
  one selection of the function it calls in turn, written into the buffer the call's result becomes. The line is
  stated as a list; every weakly fair execution of @main then terminates with each buffer at the fold of the
  operations' results over the launch contents. Read at the result buffer the fold is the composed term of the
  fourteen argument arrays (the sparse aggregation, two dense layers, the scoring tail); read at an argument buffer
  it is the argument, no operation writing one.
-/
import proofs.«125295_j75127567941781_1_alg».proof.Proof.Gen.ReferenceIdeal
import proofs.«125295_j75127567941781_1_alg».proof.Proof.RefTerms
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- @main's operations in order, the two calls unfolded. Each call of the rectifier is seven operations over its
    own buffers: the scalar zero, its broadcast, the comparison of the operand with it, the slope (a change of
    format that is none), its broadcast, the product with the operand, and the selection between the operand and
    the product, whose buffer is the call's result. -/
abbrev ops : List (HloOp τ sig (Elt F)) :=
  [ unary main_arg2 main_v0 (broadcastInDim S2400000x1 ![0] bcast_S2400000_S2400000x1_0 : (⟨S2400000, .f32⟩ : BufTy).Contents (Elt F) → (⟨S2400000x1, .f32⟩ : BufTy).Contents (Elt F)),
    nullary main_c (constantI S_ 32 0#32),
    unary main_c main_v1 (broadcastInDim S2400000 ![] bcast_S_S2400000 : (⟨S_, .i32⟩ : BufTy).Contents (Elt F) → (⟨S2400000, .i32⟩ : BufTy).Contents (Elt F)),
    binary main_arg1 main_v1 main_v2 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v3 (broadcastInDim S2400000 ![] bcast_S_S2400000 : (⟨S_, .i32⟩ : BufTy).Contents (Elt F) → (⟨S2400000, .i32⟩ : BufTy).Contents (Elt F)),
    binary main_arg1 main_v3 main_v4 (addi : (⟨S2400000, .i32⟩ : BufTy).Contents (Elt F) → (⟨S2400000, .i32⟩ : BufTy).Contents (Elt F) → (⟨S2400000, .i32⟩ : BufTy).Contents (Elt F)),
    ternary main_v2 main_v4 main_arg1 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v5 main_v6 (broadcastInDim S2400000x1 ![0] bcast_S2400000_S2400000x1_0 : (⟨S2400000, .i32⟩ : BufTy).Contents (Elt F) → (⟨S2400000x1, .i32⟩ : BufTy).Contents (Elt F)),
    binary main_arg3 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v0 main_v8 (broadcastInDim S2400000x64 ![0, 1] bcast_S2400000x1_S2400000x64_0_1 : (⟨S2400000x1, .f32⟩ : BufTy).Contents (Elt F) → (⟨S2400000x64, .f32⟩ : BufTy).Contents (Elt F)),
    binary main_v8 main_v7 main_v9 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v10 (broadcastInDim S150000x64 ![] bcast_S_S150000x64 : (⟨S_, .f32⟩ : BufTy).Contents (Elt F) → (⟨S150000x64, .f32⟩ : BufTy).Contents (Elt F)),
    unary main_arg0 main_v11 (broadcastInDim S2400000x1 ![0] bcast_S2400000_S2400000x1_0 : (⟨S2400000, .i32⟩ : BufTy).Contents (Elt F) → (⟨S2400000x1, .i32⟩ : BufTy).Contents (Elt F)),
    ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_v12 main_arg4 main_v13 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v14 (broadcastInDim S150000x64 ![0, 1] bcast_S1x64_S150000x64_0_1 : (⟨S1x64, .f32⟩ : BufTy).Contents (Elt F) → (⟨S150000x64, .f32⟩ : BufTy).Contents (Elt F)),
    binary main_v13 main_v14 main_v15 (addf : (⟨S150000x64, .f32⟩ : BufTy).Contents (Elt F) → (⟨S150000x64, .f32⟩ : BufTy).Contents (Elt F) → (⟨S150000x64, .f32⟩ : BufTy).Contents (Elt F)),
    binary main_arg3 main_v12 main_v16 (mulf : (⟨S150000x64, .f32⟩ : BufTy).Contents (Elt F) → (⟨S150000x64, .f32⟩ : BufTy).Contents (Elt F) → (⟨S150000x64, .f32⟩ : BufTy).Contents (Elt F)),
    binary main_v16 main_arg6 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v18 (broadcastInDim S150000x64 ![0, 1] bcast_S1x64_S150000x64_0_1 : (⟨S1x64, .f32⟩ : BufTy).Contents (Elt F) → (⟨S150000x64, .f32⟩ : BufTy).Contents (Elt F)),
    binary main_v17 main_v18 main_v19 (addf : (⟨S150000x64, .f32⟩ : BufTy).Contents (Elt F) → (⟨S150000x64, .f32⟩ : BufTy).Contents (Elt F) → (⟨S150000x64, .f32⟩ : BufTy).Contents (Elt F)),
    binary main_v15 main_v19 main_v20 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v20) main_call0.v0 main_call0.v1 (cmpf .oge),
    TRef.unary (.of main_cst_1) main_call0.v2 id,
    TRef.unary main_call0.v2 main_call0.v3 (broadcastInDim S150000x64 ![] bcast_S_S150000x64),
    TRef.binary main_call0.v3 (.of main_v20) main_call0.v4 mulf,
    TRef.ternary main_call0.v1 (.of main_v20) main_call0.v4 main_call0.call0.v0 select,
    binary main_v21 main_v21 main_v22 (mulf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x00000000#32),
    binary main_v22 main_cst_2 main_v23 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v23 main_v24 (broadcastInDim S150000x1 ![0] bcast_S150000_S150000x1_0 : (⟨S150000, .f32⟩ : BufTy).Contents (Elt F) → (⟨S150000x1, .f32⟩ : BufTy).Contents (Elt F)),
    unary main_v24 main_v25 (Host.sqrt : (⟨S150000x1, .f32⟩ : BufTy).Contents (Elt F) → (⟨S150000x1, .f32⟩ : BufTy).Contents (Elt F)),
    nullary main_cst_3 (constant S_ .f32 0x2B8CBCCC#32),
    unary main_cst_3 main_v26 (broadcastInDim S150000x1 ![] bcast_S_S150000x1 : (⟨S_, .f32⟩ : BufTy).Contents (Elt F) → (⟨S150000x1, .f32⟩ : BufTy).Contents (Elt F)),
    binary main_v25 main_v26 main_v27 (maximumf : (⟨S150000x1, .f32⟩ : BufTy).Contents (Elt F) → (⟨S150000x1, .f32⟩ : BufTy).Contents (Elt F) → (⟨S150000x1, .f32⟩ : BufTy).Contents (Elt F)),
    unary main_v27 main_v28 (broadcastInDim S150000x64 ![0, 1] bcast_S150000x1_S150000x64_0_1 : (⟨S150000x1, .f32⟩ : BufTy).Contents (Elt F) → (⟨S150000x64, .f32⟩ : BufTy).Contents (Elt F)),
    binary main_v21 main_v28 main_v29 (Host.divf : (⟨S150000x64, .f32⟩ : BufTy).Contents (Elt F) → (⟨S150000x64, .f32⟩ : BufTy).Contents (Elt F) → (⟨S150000x64, .f32⟩ : BufTy).Contents (Elt F)),
    unary main_arg2 main_v30 (broadcastInDim S2400000x1 ![0] bcast_S2400000_S2400000x1_0 : (⟨S2400000, .f32⟩ : BufTy).Contents (Elt F) → (⟨S2400000x1, .f32⟩ : BufTy).Contents (Elt F)),
    nullary main_c_4 (constantI S_ 32 0#32),
    unary main_c_4 main_v31 (broadcastInDim S2400000 ![] bcast_S_S2400000 : (⟨S_, .i32⟩ : BufTy).Contents (Elt F) → (⟨S2400000, .i32⟩ : BufTy).Contents (Elt F)),
    binary main_arg1 main_v31 main_v32 (cmpi .slt : (⟨S2400000, .i32⟩ : BufTy).Contents (Elt F) → (⟨S2400000, .i32⟩ : BufTy).Contents (Elt F) → (⟨S2400000, .i1⟩ : BufTy).Contents (Elt F)),
    nullary main_c_5 (constantI S_ 32 150000#32),
    unary main_c_5 main_v33 (broadcastInDim S2400000 ![] bcast_S_S2400000 : (⟨S_, .i32⟩ : BufTy).Contents (Elt F) → (⟨S2400000, .i32⟩ : BufTy).Contents (Elt F)),
    binary main_arg1 main_v33 main_v34 (addi : (⟨S2400000, .i32⟩ : BufTy).Contents (Elt F) → (⟨S2400000, .i32⟩ : BufTy).Contents (Elt F) → (⟨S2400000, .i32⟩ : BufTy).Contents (Elt F)),
    ternary main_v32 main_v34 main_arg1 main_v35 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v35 main_v36 (broadcastInDim S2400000x1 ![0] bcast_S2400000_S2400000x1_0 : (⟨S2400000, .i32⟩ : BufTy).Contents (Elt F) → (⟨S2400000x1, .i32⟩ : BufTy).Contents (Elt F)),
    binary main_v29 main_v36 main_v37 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v30 main_v38 (broadcastInDim S2400000x64 ![0, 1] bcast_S2400000x1_S2400000x64_0_1 : (⟨S2400000x1, .f32⟩ : BufTy).Contents (Elt F) → (⟨S2400000x64, .f32⟩ : BufTy).Contents (Elt F)),
    binary main_v38 main_v37 main_v39 (mulf : (⟨S2400000x64, .f32⟩ : BufTy).Contents (Elt F) → (⟨S2400000x64, .f32⟩ : BufTy).Contents (Elt F) → (⟨S2400000x64, .f32⟩ : BufTy).Contents (Elt F)),
    nullary main_cst_6 (constant S_ .f32 0x00000000#32),
    unary main_cst_6 main_v40 (broadcastInDim S150000x64 ![] bcast_S_S150000x64 : (⟨S_, .f32⟩ : BufTy).Contents (Elt F) → (⟨S150000x64, .f32⟩ : BufTy).Contents (Elt F)),
    unary main_arg0 main_v41 (broadcastInDim S2400000x1 ![0] bcast_S2400000_S2400000x1_0 : (⟨S2400000, .i32⟩ : BufTy).Contents (Elt F) → (⟨S2400000x1, .i32⟩ : BufTy).Contents (Elt F)),
    ternary main_v40 main_v41 main_v39 main_v42 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_v42 main_arg8 main_v43 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg9 main_v44 (broadcastInDim S150000x64 ![0, 1] bcast_S1x64_S150000x64_0_1 : (⟨S1x64, .f32⟩ : BufTy).Contents (Elt F) → (⟨S150000x64, .f32⟩ : BufTy).Contents (Elt F)),
    binary main_v43 main_v44 main_v45 (addf : (⟨S150000x64, .f32⟩ : BufTy).Contents (Elt F) → (⟨S150000x64, .f32⟩ : BufTy).Contents (Elt F) → (⟨S150000x64, .f32⟩ : BufTy).Contents (Elt F)),
    binary main_v29 main_v42 main_v46 (mulf : (⟨S150000x64, .f32⟩ : BufTy).Contents (Elt F) → (⟨S150000x64, .f32⟩ : BufTy).Contents (Elt F) → (⟨S150000x64, .f32⟩ : BufTy).Contents (Elt F)),
    binary main_v46 main_arg10 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg11 main_v48 (broadcastInDim S150000x64 ![0, 1] bcast_S1x64_S150000x64_0_1 : (⟨S1x64, .f32⟩ : BufTy).Contents (Elt F) → (⟨S150000x64, .f32⟩ : BufTy).Contents (Elt F)),
    binary main_v47 main_v48 main_v49 (addf : (⟨S150000x64, .f32⟩ : BufTy).Contents (Elt F) → (⟨S150000x64, .f32⟩ : BufTy).Contents (Elt F) → (⟨S150000x64, .f32⟩ : BufTy).Contents (Elt F)),
    binary main_v45 main_v49 main_v50 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3E4CCCCD#32),
    TRef.nullary main_call1.cst (constant S_ .f32 0x00000000#32),
    TRef.unary main_call1.cst main_call1.v0 (broadcastInDim S150000x64 ![] bcast_S_S150000x64),
    TRef.binary (.of main_v50) main_call1.v0 main_call1.v1 (cmpf .oge),
    TRef.unary (.of main_cst_7) main_call1.v2 id,
    TRef.unary main_call1.v2 main_call1.v3 (broadcastInDim S150000x64 ![] bcast_S_S150000x64),
    TRef.binary main_call1.v3 (.of main_v50) main_call1.v4 mulf,
    TRef.ternary main_call1.v1 (.of main_v50) main_call1.v4 main_call1.call0.v0 select,
    binary main_v51 main_v51 main_v52 (mulf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x00000000#32),
    binary main_v52 main_cst_8 main_v53 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v53 main_v54 (broadcastInDim S150000x1 ![0] bcast_S150000_S150000x1_0 : (⟨S150000, .f32⟩ : BufTy).Contents (Elt F) → (⟨S150000x1, .f32⟩ : BufTy).Contents (Elt F)),
    unary main_v54 main_v55 (Host.sqrt : (⟨S150000x1, .f32⟩ : BufTy).Contents (Elt F) → (⟨S150000x1, .f32⟩ : BufTy).Contents (Elt F)),
    nullary main_cst_9 (constant S_ .f32 0x2B8CBCCC#32),
    unary main_cst_9 main_v56 (broadcastInDim S150000x1 ![] bcast_S_S150000x1 : (⟨S_, .f32⟩ : BufTy).Contents (Elt F) → (⟨S150000x1, .f32⟩ : BufTy).Contents (Elt F)),
    binary main_v55 main_v56 main_v57 (maximumf : (⟨S150000x1, .f32⟩ : BufTy).Contents (Elt F) → (⟨S150000x1, .f32⟩ : BufTy).Contents (Elt F) → (⟨S150000x1, .f32⟩ : BufTy).Contents (Elt F)),
    unary main_v57 main_v58 (broadcastInDim S150000x64 ![0, 1] bcast_S150000x1_S150000x64_0_1 : (⟨S150000x1, .f32⟩ : BufTy).Contents (Elt F) → (⟨S150000x64, .f32⟩ : BufTy).Contents (Elt F)),
    binary main_v51 main_v58 main_v59 (Host.divf : (⟨S150000x64, .f32⟩ : BufTy).Contents (Elt F) → (⟨S150000x64, .f32⟩ : BufTy).Contents (Elt F) → (⟨S150000x64, .f32⟩ : BufTy).Contents (Elt F)),
    nary ![main_arg3, main_v29, main_v59] main_v60 (fun u => concatenate S150000x192 1 [⟨S150000x64, u 0⟩, ⟨S150000x64, u 1⟩, ⟨S150000x64, u 2⟩] concatenates_S150000x64_S150000x64_S150000x64_S150000x192_d1),
    nullary main_c_10 (constantI S_ 32 0#32),
    unary main_c_10 main_v61 (broadcastInDim S2048 ![] bcast_S_S2048 : (⟨S_, .i32⟩ : BufTy).Contents (Elt F) → (⟨S2048, .i32⟩ : BufTy).Contents (Elt F)),
    binary main_arg12 main_v61 main_v62 (cmpi .slt : (⟨S2048, .i32⟩ : BufTy).Contents (Elt F) → (⟨S2048, .i32⟩ : BufTy).Contents (Elt F) → (⟨S2048, .i1⟩ : BufTy).Contents (Elt F)),
    nullary main_c_11 (constantI S_ 32 150000#32),
    unary main_c_11 main_v63 (broadcastInDim S2048 ![] bcast_S_S2048 : (⟨S_, .i32⟩ : BufTy).Contents (Elt F) → (⟨S2048, .i32⟩ : BufTy).Contents (Elt F)),
    binary main_arg12 main_v63 main_v64 (addi : (⟨S2048, .i32⟩ : BufTy).Contents (Elt F) → (⟨S2048, .i32⟩ : BufTy).Contents (Elt F) → (⟨S2048, .i32⟩ : BufTy).Contents (Elt F)),
    ternary main_v62 main_v64 main_arg12 main_v65 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v65 main_v66 (broadcastInDim S2048x1 ![0] bcast_S2048_S2048x1_0 : (⟨S2048, .i32⟩ : BufTy).Contents (Elt F) → (⟨S2048x1, .i32⟩ : BufTy).Contents (Elt F)),
    binary main_v60 main_v66 main_v67 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    nullary main_c_12 (constantI S_ 32 100000#32),
    unary main_c_12 main_v68 (broadcastInDim S2048 ![] bcast_S_S2048 : (⟨S_, .i32⟩ : BufTy).Contents (Elt F) → (⟨S2048, .i32⟩ : BufTy).Contents (Elt F)),
    binary main_v68 main_arg13 main_v69 (addi : (⟨S2048, .i32⟩ : BufTy).Contents (Elt F) → (⟨S2048, .i32⟩ : BufTy).Contents (Elt F) → (⟨S2048, .i32⟩ : BufTy).Contents (Elt F)),
    nullary main_c_13 (constantI S_ 32 0#32),
    unary main_c_13 main_v70 (broadcastInDim S2048 ![] bcast_S_S2048 : (⟨S_, .i32⟩ : BufTy).Contents (Elt F) → (⟨S2048, .i32⟩ : BufTy).Contents (Elt F)),
    binary main_v69 main_v70 main_v71 (cmpi .slt : (⟨S2048, .i32⟩ : BufTy).Contents (Elt F) → (⟨S2048, .i32⟩ : BufTy).Contents (Elt F) → (⟨S2048, .i1⟩ : BufTy).Contents (Elt F)),
    nullary main_c_14 (constantI S_ 32 150000#32),
    unary main_c_14 main_v72 (broadcastInDim S2048 ![] bcast_S_S2048 : (⟨S_, .i32⟩ : BufTy).Contents (Elt F) → (⟨S2048, .i32⟩ : BufTy).Contents (Elt F)),
    binary main_v69 main_v72 main_v73 (addi : (⟨S2048, .i32⟩ : BufTy).Contents (Elt F) → (⟨S2048, .i32⟩ : BufTy).Contents (Elt F) → (⟨S2048, .i32⟩ : BufTy).Contents (Elt F)),
    ternary main_v71 main_v73 main_v69 main_v74 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v74 main_v75 (broadcastInDim S2048x1 ![0] bcast_S2048_S2048x1_0 : (⟨S2048, .i32⟩ : BufTy).Contents (Elt F) → (⟨S2048x1, .i32⟩ : BufTy).Contents (Elt F)),
    binary main_v60 main_v75 main_v76 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    binary main_v67 main_v76 main_v77 (mulf : (⟨S2048x192, .f32⟩ : BufTy).Contents (Elt F) → (⟨S2048x192, .f32⟩ : BufTy).Contents (Elt F) → (⟨S2048x192, .f32⟩ : BufTy).Contents (Elt F)),
    nullary main_cst_15 (constant S_ .f32 0x00000000#32),
    binary main_v77 main_cst_15 main_v78 ((fun x v => Host.reduceAdd x v reducesTo_S2048x192_S2048_d1 h_S_) : (⟨S2048x192, .f32⟩ : BufTy).Contents (Elt F) → (⟨S_, .f32⟩ : BufTy).Contents (Elt F) → (⟨S2048, .f32⟩ : BufTy).Contents (Elt F)) ]

-- one hundred and nine binds re-associated: the rewriting under the chain recurses once per statement
set_option maxRecDepth 4096 in
set_option maxHeartbeats 4000000 in
/-- @main is that straight line: its two windows in order, the functions' bodies unfolded at their calls, both
    sides one chain of steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    binary_bufs_sub .., binary_bufs_sub .., binary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    binary_bufs_sub .., binary_bufs_sub .., binary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    nary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub ..⟩

/-- At the compiled mesh, for any float values, from any memory with zero counters: every weakly fair execution of
    @main terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem arg13_eq (V : Valuation τ sig (Elt F)) :
    after ops V (main_arg13 : DevRef τ sig) = V (main_arg13 : DevRef τ sig) := by
  after_results_simp

end Cert.ReferenceIdeal.Run

end
-- ==== Proof.RefValue.lean ====
/-
  The value of the reference program's run. The line of host operations is cut into five consecutive stretches —
  the first aggregation, the first layer, the second aggregation, the second layer, the scoring tail — and the fold
  over the whole line is the folds over the stretches in turn. After its own stretch, from ANY contents, each
  stage's buffer holds that stage's named term of what the buffers it reads held before the stretch; a stretch
  leaves alone every buffer a later stretch reads and it does not write. Chained, the result buffer holds the
  composed term of the fourteen argument arrays, and the run is stated in the claim's own form.
-/
import proofs.«125295_j75127567941781_1_alg».proof.Proof.RefRun
import proofs.«125295_j75127567941781_1_alg».proof.Proof.RefTerms
import Idealize.ShloMosaic.Lib.StableHlo.Run

noncomputable section

namespace Cert.ReferenceIdeal.Run

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ## The five stretches -/

/-- The first aggregation: the sixteen operations up to the scatter-add of the weighted gathered rows. -/
abbrev s1 : List (HloOp τ sig (Elt F)) :=
  [ unary main_arg2 main_v0 (broadcastInDim S2400000x1 ![0] bcast_S2400000_S2400000x1_0 : (⟨S2400000, .f32⟩ : BufTy).Contents (Elt F) → (⟨S2400000x1, .f32⟩ : BufTy).Contents (Elt F)),
    nullary main_c (constantI S_ 32 0#32),
    unary main_c main_v1 (broadcastInDim S2400000 ![] bcast_S_S2400000 : (⟨S_, .i32⟩ : BufTy).Contents (Elt F) → (⟨S2400000, .i32⟩ : BufTy).Contents (Elt F)),
    binary main_arg1 main_v1 main_v2 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v3 (broadcastInDim S2400000 ![] bcast_S_S2400000 : (⟨S_, .i32⟩ : BufTy).Contents (Elt F) → (⟨S2400000, .i32⟩ : BufTy).Contents (Elt F)),
    binary main_arg1 main_v3 main_v4 (addi : (⟨S2400000, .i32⟩ : BufTy).Contents (Elt F) → (⟨S2400000, .i32⟩ : BufTy).Contents (Elt F) → (⟨S2400000, .i32⟩ : BufTy).Contents (Elt F)),
    ternary main_v2 main_v4 main_arg1 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v5 main_v6 (broadcastInDim S2400000x1 ![0] bcast_S2400000_S2400000x1_0 : (⟨S2400000, .i32⟩ : BufTy).Contents (Elt F) → (⟨S2400000x1, .i32⟩ : BufTy).Contents (Elt F)),
    binary main_arg3 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v0 main_v8 (broadcastInDim S2400000x64 ![0, 1] bcast_S2400000x1_S2400000x64_0_1 : (⟨S2400000x1, .f32⟩ : BufTy).Contents (Elt F) → (⟨S2400000x64, .f32⟩ : BufTy).Contents (Elt F)),
    binary main_v8 main_v7 main_v9 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v10 (broadcastInDim S150000x64 ![] bcast_S_S150000x64 : (⟨S_, .f32⟩ : BufTy).Contents (Elt F) → (⟨S150000x64, .f32⟩ : BufTy).Contents (Elt F)),
    unary main_arg0 main_v11 (broadcastInDim S2400000x1 ![0] bcast_S2400000_S2400000x1_0 : (⟨S2400000, .i32⟩ : BufTy).Contents (Elt F) → (⟨S2400000x1, .i32⟩ : BufTy).Contents (Elt F)),
    ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- The first layer: the two affine maps and their sum, the rectifier's seven operations, the normalisation of each row. -/
abbrev s2 : List (HloOp τ sig (Elt F)) :=
  [ binary main_v12 main_arg4 main_v13 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v14 (broadcastInDim S150000x64 ![0, 1] bcast_S1x64_S150000x64_0_1 : (⟨S1x64, .f32⟩ : BufTy).Contents (Elt F) → (⟨S150000x64, .f32⟩ : BufTy).Contents (Elt F)),
    binary main_v13 main_v14 main_v15 (addf : (⟨S150000x64, .f32⟩ : BufTy).Contents (Elt F) → (⟨S150000x64, .f32⟩ : BufTy).Contents (Elt F) → (⟨S150000x64, .f32⟩ : BufTy).Contents (Elt F)),
    binary main_arg3 main_v12 main_v16 (mulf : (⟨S150000x64, .f32⟩ : BufTy).Contents (Elt F) → (⟨S150000x64, .f32⟩ : BufTy).Contents (Elt F) → (⟨S150000x64, .f32⟩ : BufTy).Contents (Elt F)),
    binary main_v16 main_arg6 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v18 (broadcastInDim S150000x64 ![0, 1] bcast_S1x64_S150000x64_0_1 : (⟨S1x64, .f32⟩ : BufTy).Contents (Elt F) → (⟨S150000x64, .f32⟩ : BufTy).Contents (Elt F)),
    binary main_v17 main_v18 main_v19 (addf : (⟨S150000x64, .f32⟩ : BufTy).Contents (Elt F) → (⟨S150000x64, .f32⟩ : BufTy).Contents (Elt F) → (⟨S150000x64, .f32⟩ : BufTy).Contents (Elt F)),
    binary main_v15 main_v19 main_v20 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v20) main_call0.v0 main_call0.v1 (cmpf .oge),
    TRef.unary (.of main_cst_1) main_call0.v2 id,
    TRef.unary main_call0.v2 main_call0.v3 (broadcastInDim S150000x64 ![] bcast_S_S150000x64),
    TRef.binary main_call0.v3 (.of main_v20) main_call0.v4 mulf,
    TRef.ternary main_call0.v1 (.of main_v20) main_call0.v4 main_call0.call0.v0 select,
    binary main_v21 main_v21 main_v22 (mulf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x00000000#32),
    binary main_v22 main_cst_2 main_v23 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v23 main_v24 (broadcastInDim S150000x1 ![0] bcast_S150000_S150000x1_0 : (⟨S150000, .f32⟩ : BufTy).Contents (Elt F) → (⟨S150000x1, .f32⟩ : BufTy).Contents (Elt F)),
    unary main_v24 main_v25 (Host.sqrt : (⟨S150000x1, .f32⟩ : BufTy).Contents (Elt F) → (⟨S150000x1, .f32⟩ : BufTy).Contents (Elt F)),
    nullary main_cst_3 (constant S_ .f32 0x2B8CBCCC#32),
    unary main_cst_3 main_v26 (broadcastInDim S150000x1 ![] bcast_S_S150000x1 : (⟨S_, .f32⟩ : BufTy).Contents (Elt F) → (⟨S150000x1, .f32⟩ : BufTy).Contents (Elt F)),
    binary main_v25 main_v26 main_v27 (maximumf : (⟨S150000x1, .f32⟩ : BufTy).Contents (Elt F) → (⟨S150000x1, .f32⟩ : BufTy).Contents (Elt F) → (⟨S150000x1, .f32⟩ : BufTy).Contents (Elt F)),
    unary main_v27 main_v28 (broadcastInDim S150000x64 ![0, 1] bcast_S150000x1_S150000x64_0_1 : (⟨S150000x1, .f32⟩ : BufTy).Contents (Elt F) → (⟨S150000x64, .f32⟩ : BufTy).Contents (Elt F)),
    binary main_v21 main_v28 main_v29 (Host.divf : (⟨S150000x64, .f32⟩ : BufTy).Contents (Elt F) → (⟨S150000x64, .f32⟩ : BufTy).Contents (Elt F) → (⟨S150000x64, .f32⟩ : BufTy).Contents (Elt F)) ]

/-- The second aggregation, over the first layer's result. -/
abbrev s3 : List (HloOp τ sig (Elt F)) :=
  [ unary main_arg2 main_v30 (broadcastInDim S2400000x1 ![0] bcast_S2400000_S2400000x1_0 : (⟨S2400000, .f32⟩ : BufTy).Contents (Elt F) → (⟨S2400000x1, .f32⟩ : BufTy).Contents (Elt F)),
    nullary main_c_4 (constantI S_ 32 0#32),
    unary main_c_4 main_v31 (broadcastInDim S2400000 ![] bcast_S_S2400000 : (⟨S_, .i32⟩ : BufTy).Contents (Elt F) → (⟨S2400000, .i32⟩ : BufTy).Contents (Elt F)),
    binary main_arg1 main_v31 main_v32 (cmpi .slt : (⟨S2400000, .i32⟩ : BufTy).Contents (Elt F) → (⟨S2400000, .i32⟩ : BufTy).Contents (Elt F) → (⟨S2400000, .i1⟩ : BufTy).Contents (Elt F)),
    nullary main_c_5 (constantI S_ 32 150000#32),
    unary main_c_5 main_v33 (broadcastInDim S2400000 ![] bcast_S_S2400000 : (⟨S_, .i32⟩ : BufTy).Contents (Elt F) → (⟨S2400000, .i32⟩ : BufTy).Contents (Elt F)),
    binary main_arg1 main_v33 main_v34 (addi : (⟨S2400000, .i32⟩ : BufTy).Contents (Elt F) → (⟨S2400000, .i32⟩ : BufTy).Contents (Elt F) → (⟨S2400000, .i32⟩ : BufTy).Contents (Elt F)),
    ternary main_v32 main_v34 main_arg1 main_v35 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v35 main_v36 (broadcastInDim S2400000x1 ![0] bcast_S2400000_S2400000x1_0 : (⟨S2400000, .i32⟩ : BufTy).Contents (Elt F) → (⟨S2400000x1, .i32⟩ : BufTy).Contents (Elt F)),
    binary main_v29 main_v36 main_v37 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v30 main_v38 (broadcastInDim S2400000x64 ![0, 1] bcast_S2400000x1_S2400000x64_0_1 : (⟨S2400000x1, .f32⟩ : BufTy).Contents (Elt F) → (⟨S2400000x64, .f32⟩ : BufTy).Contents (Elt F)),
    binary main_v38 main_v37 main_v39 (mulf : (⟨S2400000x64, .f32⟩ : BufTy).Contents (Elt F) → (⟨S2400000x64, .f32⟩ : BufTy).Contents (Elt F) → (⟨S2400000x64, .f32⟩ : BufTy).Contents (Elt F)),
    nullary main_cst_6 (constant S_ .f32 0x00000000#32),
    unary main_cst_6 main_v40 (broadcastInDim S150000x64 ![] bcast_S_S150000x64 : (⟨S_, .f32⟩ : BufTy).Contents (Elt F) → (⟨S150000x64, .f32⟩ : BufTy).Contents (Elt F)),
    unary main_arg0 main_v41 (broadcastInDim S2400000x1 ![0] bcast_S2400000_S2400000x1_0 : (⟨S2400000, .i32⟩ : BufTy).Contents (Elt F) → (⟨S2400000x1, .i32⟩ : BufTy).Contents (Elt F)),
    ternary main_v40 main_v41 main_v39 main_v42 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- The second layer, over the first layer's result and its aggregation. -/
abbrev s4 : List (HloOp τ sig (Elt F)) :=
  [ binary main_v42 main_arg8 main_v43 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg9 main_v44 (broadcastInDim S150000x64 ![0, 1] bcast_S1x64_S150000x64_0_1 : (⟨S1x64, .f32⟩ : BufTy).Contents (Elt F) → (⟨S150000x64, .f32⟩ : BufTy).Contents (Elt F)),
    binary main_v43 main_v44 main_v45 (addf : (⟨S150000x64, .f32⟩ : BufTy).Contents (Elt F) → (⟨S150000x64, .f32⟩ : BufTy).Contents (Elt F) → (⟨S150000x64, .f32⟩ : BufTy).Contents (Elt F)),
    binary main_v29 main_v42 main_v46 (mulf : (⟨S150000x64, .f32⟩ : BufTy).Contents (Elt F) → (⟨S150000x64, .f32⟩ : BufTy).Contents (Elt F) → (⟨S150000x64, .f32⟩ : BufTy).Contents (Elt F)),
    binary main_v46 main_arg10 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg11 main_v48 (broadcastInDim S150000x64 ![0, 1] bcast_S1x64_S150000x64_0_1 : (⟨S1x64, .f32⟩ : BufTy).Contents (Elt F) → (⟨S150000x64, .f32⟩ : BufTy).Contents (Elt F)),
    binary main_v47 main_v48 main_v49 (addf : (⟨S150000x64, .f32⟩ : BufTy).Contents (Elt F) → (⟨S150000x64, .f32⟩ : BufTy).Contents (Elt F) → (⟨S150000x64, .f32⟩ : BufTy).Contents (Elt F)),
    binary main_v45 main_v49 main_v50 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3E4CCCCD#32),
    TRef.nullary main_call1.cst (constant S_ .f32 0x00000000#32),
    TRef.unary main_call1.cst main_call1.v0 (broadcastInDim S150000x64 ![] bcast_S_S150000x64),
    TRef.binary (.of main_v50) main_call1.v0 main_call1.v1 (cmpf .oge),
    TRef.unary (.of main_cst_7) main_call1.v2 id,
    TRef.unary main_call1.v2 main_call1.v3 (broadcastInDim S150000x64 ![] bcast_S_S150000x64),
    TRef.binary main_call1.v3 (.of main_v50) main_call1.v4 mulf,
    TRef.ternary main_call1.v1 (.of main_v50) main_call1.v4 main_call1.call0.v0 select,
    binary main_v51 main_v51 main_v52 (mulf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x00000000#32),
    binary main_v52 main_cst_8 main_v53 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v53 main_v54 (broadcastInDim S150000x1 ![0] bcast_S150000_S150000x1_0 : (⟨S150000, .f32⟩ : BufTy).Contents (Elt F) → (⟨S150000x1, .f32⟩ : BufTy).Contents (Elt F)),
    unary main_v54 main_v55 (Host.sqrt : (⟨S150000x1, .f32⟩ : BufTy).Contents (Elt F) → (⟨S150000x1, .f32⟩ : BufTy).Contents (Elt F)),
    nullary main_cst_9 (constant S_ .f32 0x2B8CBCCC#32),
    unary main_cst_9 main_v56 (broadcastInDim S150000x1 ![] bcast_S_S150000x1 : (⟨S_, .f32⟩ : BufTy).Contents (Elt F) → (⟨S150000x1, .f32⟩ : BufTy).Contents (Elt F)),
    binary main_v55 main_v56 main_v57 (maximumf : (⟨S150000x1, .f32⟩ : BufTy).Contents (Elt F) → (⟨S150000x1, .f32⟩ : BufTy).Contents (Elt F) → (⟨S150000x1, .f32⟩ : BufTy).Contents (Elt F)),
    unary main_v57 main_v58 (broadcastInDim S150000x64 ![0, 1] bcast_S150000x1_S150000x64_0_1 : (⟨S150000x1, .f32⟩ : BufTy).Contents (Elt F) → (⟨S150000x64, .f32⟩ : BufTy).Contents (Elt F)),
    binary main_v51 main_v58 main_v59 (Host.divf : (⟨S150000x64, .f32⟩ : BufTy).Contents (Elt F) → (⟨S150000x64, .f32⟩ : BufTy).Contents (Elt F) → (⟨S150000x64, .f32⟩ : BufTy).Contents (Elt F)) ]

/-- The scoring tail: the three embeddings side by side, the two gathers of rows, their product and its sum along each row. -/
abbrev s5 : List (HloOp τ sig (Elt F)) :=
  [ nary ![main_arg3, main_v29, main_v59] main_v60 (fun u => concatenate S150000x192 1 [⟨S150000x64, u 0⟩, ⟨S150000x64, u 1⟩, ⟨S150000x64, u 2⟩] concatenates_S150000x64_S150000x64_S150000x64_S150000x192_d1),
    nullary main_c_10 (constantI S_ 32 0#32),
    unary main_c_10 main_v61 (broadcastInDim S2048 ![] bcast_S_S2048 : (⟨S_, .i32⟩ : BufTy).Contents (Elt F) → (⟨S2048, .i32⟩ : BufTy).Contents (Elt F)),
    binary main_arg12 main_v61 main_v62 (cmpi .slt : (⟨S2048, .i32⟩ : BufTy).Contents (Elt F) → (⟨S2048, .i32⟩ : BufTy).Contents (Elt F) → (⟨S2048, .i1⟩ : BufTy).Contents (Elt F)),
    nullary main_c_11 (constantI S_ 32 150000#32),
    unary main_c_11 main_v63 (broadcastInDim S2048 ![] bcast_S_S2048 : (⟨S_, .i32⟩ : BufTy).Contents (Elt F) → (⟨S2048, .i32⟩ : BufTy).Contents (Elt F)),
    binary main_arg12 main_v63 main_v64 (addi : (⟨S2048, .i32⟩ : BufTy).Contents (Elt F) → (⟨S2048, .i32⟩ : BufTy).Contents (Elt F) → (⟨S2048, .i32⟩ : BufTy).Contents (Elt F)),
    ternary main_v62 main_v64 main_arg12 main_v65 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v65 main_v66 (broadcastInDim S2048x1 ![0] bcast_S2048_S2048x1_0 : (⟨S2048, .i32⟩ : BufTy).Contents (Elt F) → (⟨S2048x1, .i32⟩ : BufTy).Contents (Elt F)),
    binary main_v60 main_v66 main_v67 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    nullary main_c_12 (constantI S_ 32 100000#32),
    unary main_c_12 main_v68 (broadcastInDim S2048 ![] bcast_S_S2048 : (⟨S_, .i32⟩ : BufTy).Contents (Elt F) → (⟨S2048, .i32⟩ : BufTy).Contents (Elt F)),
    binary main_v68 main_arg13 main_v69 (addi : (⟨S2048, .i32⟩ : BufTy).Contents (Elt F) → (⟨S2048, .i32⟩ : BufTy).Contents (Elt F) → (⟨S2048, .i32⟩ : BufTy).Contents (Elt F)),
    nullary main_c_13 (constantI S_ 32 0#32),
    unary main_c_13 main_v70 (broadcastInDim S2048 ![] bcast_S_S2048 : (⟨S_, .i32⟩ : BufTy).Contents (Elt F) → (⟨S2048, .i32⟩ : BufTy).Contents (Elt F)),
    binary main_v69 main_v70 main_v71 (cmpi .slt : (⟨S2048, .i32⟩ : BufTy).Contents (Elt F) → (⟨S2048, .i32⟩ : BufTy).Contents (Elt F) → (⟨S2048, .i1⟩ : BufTy).Contents (Elt F)),
    nullary main_c_14 (constantI S_ 32 150000#32),
    unary main_c_14 main_v72 (broadcastInDim S2048 ![] bcast_S_S2048 : (⟨S_, .i32⟩ : BufTy).Contents (Elt F) → (⟨S2048, .i32⟩ : BufTy).Contents (Elt F)),
    binary main_v69 main_v72 main_v73 (addi : (⟨S2048, .i32⟩ : BufTy).Contents (Elt F) → (⟨S2048, .i32⟩ : BufTy).Contents (Elt F) → (⟨S2048, .i32⟩ : BufTy).Contents (Elt F)),
    ternary main_v71 main_v73 main_v69 main_v74 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v74 main_v75 (broadcastInDim S2048x1 ![0] bcast_S2048_S2048x1_0 : (⟨S2048, .i32⟩ : BufTy).Contents (Elt F) → (⟨S2048x1, .i32⟩ : BufTy).Contents (Elt F)),
    binary main_v60 main_v75 main_v76 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    binary main_v67 main_v76 main_v77 (mulf : (⟨S2048x192, .f32⟩ : BufTy).Contents (Elt F) → (⟨S2048x192, .f32⟩ : BufTy).Contents (Elt F) → (⟨S2048x192, .f32⟩ : BufTy).Contents (Elt F)),
    nullary main_cst_15 (constant S_ .f32 0x00000000#32),
    binary main_v77 main_cst_15 main_v78 ((fun x v => Host.reduceAdd x v reducesTo_S2048x192_S2048_d1 h_S_) : (⟨S2048x192, .f32⟩ : BufTy).Contents (Elt F) → (⟨S_, .f32⟩ : BufTy).Contents (Elt F) → (⟨S2048, .f32⟩ : BufTy).Contents (Elt F)) ]

/-- The line is the five stretches in order. -/
theorem ops_split : (ops : List (HloOp τ sig (Elt F))) = s1 ++ (s2 ++ (s3 ++ (s4 ++ s5))) := rfl

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each stage after its own stretch

Each operation's result at its own buffer is its function of its operands' contents, and at any other buffer what
was there: read at the stage's buffer the stretch unfolds, operation by operation, into the stage's operations
composed over the contents the stretch started from, which is the named term by definition (a typed reference's
transport is the identity at a literal reference; the change of format inside the rectifier is the identity
function). The gathers, scatter-adds, row sums and the concatenation are kept folded while the two sides are
compared: the equation never looks inside them. -/

attribute [local irreducible] Host.gather Host.scatterAdd Host.reduceAdd concatenate in
/-- The first aggregation's buffer after its stretch, from any contents. -/
theorem s1_eq (V : Valuation τ sig (Elt F)) :
    after s1 V (main_v12 : DevRef τ sig) = Terms.agg (V (main_arg0 : DevRef τ sig)) (V (main_arg1 : DevRef τ sig)) (V (main_arg2 : DevRef τ sig)) (V (main_arg3 : DevRef τ sig)) := by
  after_results_simp
  rfl

attribute [local irreducible] Host.gather Host.scatterAdd Host.reduceAdd concatenate in
/-- The first layer's buffer after its stretch, from any contents: the layer of the input embeddings and of what the
    aggregation's buffer held. -/
theorem s2_eq (V : Valuation τ sig (Elt F)) :
    after s2 V (main_v29 : DevRef τ sig) = Terms.layer (V (main_arg3 : DevRef τ sig)) (V (main_v12 : DevRef τ sig)) (V (main_arg4 : DevRef τ sig)) (V (main_arg5 : DevRef τ sig)) (V (main_arg6 : DevRef τ sig)) (V (main_arg7 : DevRef τ sig)) := by
  after_results_simp
  rfl

attribute [local irreducible] Host.gather Host.scatterAdd Host.reduceAdd concatenate in
/-- The second aggregation's buffer after its stretch, from any contents. -/
theorem s3_eq (V : Valuation τ sig (Elt F)) :
    after s3 V (main_v42 : DevRef τ sig) = Terms.agg (V (main_arg0 : DevRef τ sig)) (V (main_arg1 : DevRef τ sig)) (V (main_arg2 : DevRef τ sig)) (V (main_v29 : DevRef τ sig)) := by
  after_results_simp
  rfl

attribute [local irreducible] Host.gather Host.scatterAdd Host.reduceAdd concatenate in
/-- The second layer's buffer after its stretch, from any contents. -/
theorem s4_eq (V : Valuation τ sig (Elt F)) :
    after s4 V (main_v59 : DevRef τ sig) = Terms.layer (V (main_v29 : DevRef τ sig)) (V (main_v42 : DevRef τ sig)) (V (main_arg8 : DevRef τ sig)) (V (main_arg9 : DevRef τ sig)) (V (main_arg10 : DevRef τ sig)) (V (main_arg11 : DevRef τ sig)) := by
  after_results_simp
  rfl

/-- An operation over a literal family of three operands, read at its result: its function at the family whose
    member `k` is operand `k`'s contents at its own reference (a family of three read at `0`, `1`, `2` is its
    members in turn), so that the operands' contents can be read on in their turn. -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

attribute [local irreducible] Host.gather Host.scatterAdd Host.reduceAdd concatenate in
/-- The result buffer after the tail's stretch, from any contents. -/
theorem s5_eq (V : Valuation τ sig (Elt F)) :
    after s5 V (main_v78 : DevRef τ sig) = Terms.tail (V (main_arg3 : DevRef τ sig)) (V (main_v29 : DevRef τ sig)) (V (main_v59 : DevRef τ sig)) (V (main_arg12 : DevRef τ sig)) (V (main_arg13 : DevRef τ sig)) := by
  simp (disch := decide) only [after_cons, after_nil,
    nullary_result', unary_result', binary_result', ternary_result', nary3_result',
    nullary_result_ne', unary_result_ne', binary_result_ne', ternary_result_ne', nary_result_ne']
  rfl

/-! ## What a stretch leaves alone -/

/-- No operation of the first aggregation writes an argument. -/
theorem s1_kept (V : Valuation τ sig (Elt F)) :
    ∀ r ∈ ([main_arg0, main_arg1, main_arg2, main_arg3, main_arg4, main_arg5, main_arg6, main_arg7, main_arg8, main_arg9, main_arg10, main_arg11, main_arg12, main_arg13] : List (Ref sig .tc)), after s1 V (r : DevRef τ sig) = V (r : DevRef τ sig) := by
  intro r h
  (repeat (cases h with | head => after_results_simp | tail _ h => ?_))
  exact nomatch h

/-- The first layer's operations write none of the arguments read after it. -/
theorem s2_kept (V : Valuation τ sig (Elt F)) :
    ∀ r ∈ ([main_arg0, main_arg1, main_arg2, main_arg3, main_arg8, main_arg9, main_arg10, main_arg11, main_arg12, main_arg13] : List (Ref sig .tc)), after s2 V (r : DevRef τ sig) = V (r : DevRef τ sig) := by
  intro r h
  (repeat (cases h with | head => after_results_simp | tail _ h => ?_))
  exact nomatch h

/-- The second aggregation's operations write neither the first layer's result nor the arguments read after it. -/
theorem s3_kept (V : Valuation τ sig (Elt F)) :
    ∀ r ∈ ([main_arg3, main_v29, main_arg8, main_arg9, main_arg10, main_arg11, main_arg12, main_arg13] : List (Ref sig .tc)), after s3 V (r : DevRef τ sig) = V (r : DevRef τ sig) := by
  intro r h
  (repeat (cases h with | head => after_results_simp | tail _ h => ?_))
  exact nomatch h

/-- The second layer's operations write neither the first layer's result nor the arguments the tail reads. -/
theorem s4_kept (V : Valuation τ sig (Elt F)) :
    ∀ r ∈ ([main_arg3, main_v29, main_arg12, main_arg13] : List (Ref sig .tc)), after s4 V (r : DevRef τ sig) = V (r : DevRef τ sig) := by
  intro r h
  (repeat (cases h with | head => after_results_simp | tail _ h => ?_))
  exact nomatch h

/-! ## The whole line -/

/-- The fold at the result buffer is the composed term of the arguments: the tail of the input embeddings and the
    two layers' results, the second layer over the first's result and its aggregation, the first over the input
    embeddings and theirs. -/
theorem out_eq (V : Valuation τ sig (Elt F)) :
    after ops V (main_v78 : DevRef τ sig)
      = Cert.ReferenceIdeal.Terms.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_split, after_append, after_append, after_append, after_append,
    s5_eq, s4_eq, s4_kept _ main_arg3 (by decide), s4_kept _ main_v29 (by decide),
    s4_kept _ main_arg12 (by decide), s4_kept _ main_arg13 (by decide), s3_eq, s3_kept _ main_arg3 (by decide),
    s3_kept _ main_v29 (by decide), s3_kept _ main_arg8 (by decide), s3_kept _ main_arg9 (by decide), s3_kept _ main_arg10 (by decide),
    s3_kept _ main_arg11 (by decide), s3_kept _ main_arg12 (by decide), s3_kept _ main_arg13 (by decide), s2_eq,
    s2_kept _ main_arg0 (by decide), s2_kept _ main_arg1 (by decide), s2_kept _ main_arg2 (by decide), s2_kept _ main_arg3 (by decide),
    s2_kept _ main_arg8 (by decide), s2_kept _ main_arg9 (by decide), s2_kept _ main_arg10 (by decide), s2_kept _ main_arg11 (by decide),
    s2_kept _ main_arg12 (by decide), s2_kept _ main_arg13 (by decide), s1_eq, s1_kept _ main_arg0 (by decide),
    s1_kept _ main_arg1 (by decide), s1_kept _ main_arg2 (by decide), s1_kept _ main_arg3 (by decide), s1_kept _ main_arg4 (by decide),
    s1_kept _ main_arg5 (by decide), s1_kept _ main_arg6 (by decide), s1_kept _ main_arg7 (by decide), s1_kept _ main_arg8 (by decide),
    s1_kept _ main_arg9 (by decide), s1_kept _ main_arg10 (by decide), s1_kept _ main_arg11 (by decide), s1_kept _ main_arg12 (by decide),
    s1_kept _ main_arg13 (by decide)]
  rfl

/-- The reference's run in the claim's own form: on every device the result buffer ends at the composed term of the
    arguments' launch contents, and every argument buffer ends as it started. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = Cert.ReferenceIdeal.Terms.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v78).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.ReferenceIdeal.Run

end
-- ==== Proof.lean ====
/-
  The certificate: a two-layer graph network's scores, the dense layer of each level computed by a pipelined kernel over
  blocks of 3000 nodes, against the same network written with whole-array host operations.
  Both programs aggregate neighbours with the same host operations (a gather of rows by the column indices, a scaling by
  the edge weights, a scatter-add by the row indices) and score with the same host operations (the three embeddings side
  by side, two gathers of rows, a row sum of their product); they differ only in how a layer
      act = leaky(side · Wg + bg + (x ∘ side) · Wb + bb),   out = act / max(‖act‖₂ per row, floor)
  is computed. At the extended reals a change of float format is the identity, a block product into the zero accumulator
  is the host's product, a lane sum the host's row sum, and a row of the layer reads only the same row of `x` and `side`,
  so the kernel's fifty blocks assemble to the host's whole-array layer, entry by entry, with no use of finiteness.
  The three frames: each kernel program's run (every weakly fair execution terminates, faults nowhere, and leaves every
  buffer at the fold of @main's items over the launch memory) read at the arguments; the reference's run likewise.
  The idealized kernel is the kernel's own text read at the extended reals (the ideal pass rewrote nothing).
-/
import proofs.«125295_j75127567941781_1_alg».proof.Defs
import proofs.«125295_j75127567941781_1_alg».proof.Proof.Gen.Kernel
import proofs.«125295_j75127567941781_1_alg».proof.Proof.Gen.KernelIdeal
import proofs.«125295_j75127567941781_1_alg».proof.Proof.Gen.ReferenceIdeal
import proofs.«125295_j75127567941781_1_alg».proof.Proof.Gen.Pre_finite_inputs
import proofs.«125295_j75127567941781_1_alg».proof.Proof.KernelRun
import proofs.«125295_j75127567941781_1_alg».proof.Proof.KernelIdealRun
import proofs.«125295_j75127567941781_1_alg».proof.Proof.KernelIdealBlocks
import proofs.«125295_j75127567941781_1_alg».proof.Proof.KernelIdealHost
import proofs.«125295_j75127567941781_1_alg».proof.Proof.LayerInst
import proofs.«125295_j75127567941781_1_alg».proof.Proof.RefValue
import Idealize.ShloMosaic.Adequacy
import Idealize.ShloMosaic.Init

noncomputable section

namespace Cert.Proof

open Idealize.ShloMosaic Idealize.ShloMosaic.TcCoe Idealize.SL.Sem

/-- The kernel program's result buffer at the end of its run is the reference's composed term of the launch arrays:
    the first aggregation and the scores by the host stretches read as the reference's stages, each region's output
    array by its blocks assembled into the whole-array layer. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Run.W5 m ρ c (Proc.devRef .tc Cert.KernelIdeal.main_v46)
      = Cert.ReferenceIdeal.Terms.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  have e1 : Cert.KernelIdeal.Run.W2 m ρ c (Proc.devRef .tc Cert.KernelIdeal.main_v13)
      = Cert.ReferenceIdeal.Terms.layer (F := Ideal) (m ((c.tc : Thread Cert.KernelIdeal.nD Cert.KernelIdeal.τ).loc Cert.KernelIdeal.main_arg3))
          (Cert.ReferenceIdeal.Terms.agg (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    rw [Cert.LayerInst.refLayer_eq]
    refine (Cert.KernelIdeal.Run.W2_arr m ρ c 6).trans ?_
    rw [Cert.KernelIdeal.Blocks.final0 (Cert.KernelIdeal.Run.U1 m ρ) Cert.LayerInst.k0_pay1_eq c]
    unfold Cert.KernelIdeal.Blocks.G0
    show Cert.Lib.layer (N := 150000) (D := 64) (E := 64) (Cert.KernelIdeal.Run.W1 m ρ c (Proc.devRef .tc Cert.KernelIdeal.main_arg3)) (Cert.KernelIdeal.Run.W1 m ρ c (Proc.devRef .tc Cert.KernelIdeal.main_v12))
      (Cert.KernelIdeal.Run.W1 m ρ c (Proc.devRef .tc Cert.KernelIdeal.main_arg4)) (Cert.KernelIdeal.Run.W1 m ρ c (Proc.devRef .tc Cert.KernelIdeal.main_arg5))
      (Cert.KernelIdeal.Run.W1 m ρ c (Proc.devRef .tc Cert.KernelIdeal.main_arg6)) (Cert.KernelIdeal.Run.W1 m ρ c (Proc.devRef .tc Cert.KernelIdeal.main_arg7)) = _
    rw [Cert.KernelIdeal.Host.side0_eq, Cert.KernelIdeal.Host.W1_arg3, Cert.KernelIdeal.Host.W1_arg4, Cert.KernelIdeal.Host.W1_arg5, Cert.KernelIdeal.Host.W1_arg6, Cert.KernelIdeal.Host.W1_arg7]
  have e2 : Cert.KernelIdeal.Run.W4 m ρ c (Proc.devRef .tc Cert.KernelIdeal.main_v27)
      = Cert.ReferenceIdeal.Terms.layer (F := Ideal) (Cert.KernelIdeal.Run.W2 m ρ c (Proc.devRef .tc Cert.KernelIdeal.main_v13))
          (Cert.ReferenceIdeal.Terms.agg (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Run.W2 m ρ c (Proc.devRef .tc Cert.KernelIdeal.main_v13)))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
    rw [Cert.LayerInst.refLayer_eq]
    refine (Cert.KernelIdeal.Run.W4_arr m ρ c 6).trans ?_
    rw [Cert.KernelIdeal.Blocks.final1 (Cert.KernelIdeal.Run.U3 m ρ) Cert.LayerInst.k1_pay1_eq c]
    unfold Cert.KernelIdeal.Blocks.G1
    show Cert.Lib.layer (N := 150000) (D := 64) (E := 64) (Cert.KernelIdeal.Run.W3 m ρ c (Proc.devRef .tc Cert.KernelIdeal.main_v13)) (Cert.KernelIdeal.Run.W3 m ρ c (Proc.devRef .tc Cert.KernelIdeal.main_v26))
      (Cert.KernelIdeal.Run.W3 m ρ c (Proc.devRef .tc Cert.KernelIdeal.main_arg8)) (Cert.KernelIdeal.Run.W3 m ρ c (Proc.devRef .tc Cert.KernelIdeal.main_arg9))
      (Cert.KernelIdeal.Run.W3 m ρ c (Proc.devRef .tc Cert.KernelIdeal.main_arg10)) (Cert.KernelIdeal.Run.W3 m ρ c (Proc.devRef .tc Cert.KernelIdeal.main_arg11)) = _
    rw [Cert.KernelIdeal.Host.side1_eq, Cert.KernelIdeal.Host.W3_v13, Cert.KernelIdeal.Host.W3_arg8, Cert.KernelIdeal.Host.W3_arg9, Cert.KernelIdeal.Host.W3_arg10, Cert.KernelIdeal.Host.W3_arg11]
  rw [Cert.KernelIdeal.Host.score_eq, e2, e1]
  rfl

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both idealized programs end with the reference's composed term of the (agreeing) launch arrays in their result buffer. -/
theorem algebraic : Cert.algebraic_KernelIdeal_ReferenceIdeal := by
  intro m ρ m' ρ' _ hagree
  refine ⟨fun c => Cert.ReferenceIdeal.Terms.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c _ (Cert.KernelIdeal.Run.mem_uc Cert.KernelIdeal.main_v46 (by decide))).trans (kernel_value m ρ c),
      (h c _ (Cert.KernelIdeal.Run.mem_uc Cert.KernelIdeal.main_arg0 (by decide))).trans (Cert.KernelIdeal.Run.W5_main_arg0 m ρ c),
      (h c _ (Cert.KernelIdeal.Run.mem_uc Cert.KernelIdeal.main_arg1 (by decide))).trans (Cert.KernelIdeal.Run.W5_main_arg1 m ρ c),
      (h c _ (Cert.KernelIdeal.Run.mem_uc Cert.KernelIdeal.main_arg2 (by decide))).trans (Cert.KernelIdeal.Run.W5_main_arg2 m ρ c),
      (h c _ (Cert.KernelIdeal.Run.mem_uc Cert.KernelIdeal.main_arg3 (by decide))).trans (Cert.KernelIdeal.Run.W5_main_arg3 m ρ c),
      (h c _ (Cert.KernelIdeal.Run.mem_uc Cert.KernelIdeal.main_arg4 (by decide))).trans (Cert.KernelIdeal.Run.W5_main_arg4 m ρ c),
      (h c _ (Cert.KernelIdeal.Run.mem_uc Cert.KernelIdeal.main_arg5 (by decide))).trans (Cert.KernelIdeal.Run.W5_main_arg5 m ρ c),
      (h c _ (Cert.KernelIdeal.Run.mem_uc Cert.KernelIdeal.main_arg6 (by decide))).trans (Cert.KernelIdeal.Run.W5_main_arg6 m ρ c),
      (h c _ (Cert.KernelIdeal.Run.mem_uc Cert.KernelIdeal.main_arg7 (by decide))).trans (Cert.KernelIdeal.Run.W5_main_arg7 m ρ c),
      (h c _ (Cert.KernelIdeal.Run.mem_uc Cert.KernelIdeal.main_arg8 (by decide))).trans (Cert.KernelIdeal.Run.W5_main_arg8 m ρ c),
      (h c _ (Cert.KernelIdeal.Run.mem_uc Cert.KernelIdeal.main_arg9 (by decide))).trans (Cert.KernelIdeal.Run.W5_main_arg9 m ρ c),
      (h c _ (Cert.KernelIdeal.Run.mem_uc Cert.KernelIdeal.main_arg10 (by decide))).trans (Cert.KernelIdeal.Run.W5_main_arg10 m ρ c),
      (h c _ (Cert.KernelIdeal.Run.mem_uc Cert.KernelIdeal.main_arg11 (by decide))).trans (Cert.KernelIdeal.Run.W5_main_arg11 m ρ c),
      (h c _ (Cert.KernelIdeal.Run.mem_uc Cert.KernelIdeal.main_arg12 (by decide))).trans (Cert.KernelIdeal.Run.W5_main_arg12 m ρ c),
      (h c _ (Cert.KernelIdeal.Run.mem_uc Cert.KernelIdeal.main_arg13 (by decide))).trans (Cert.KernelIdeal.Run.W5_main_arg13 m ρ c)⟩) (Cert.KernelIdeal.Run.run m ρ)
  · refine (θ_run Cert.ReferenceIdeal.defs _ _).mono (fun r h c => ⟨(h c).1.trans ?_, (h c).2⟩) (Cert.ReferenceIdeal.Run.run (F := Ideal) m' ρ')
    obtain ⟨a0, a1, a2, a3, a4, a5, a6, a7, a8, a9, a10, a11, a12, a13⟩ := hagree c
    rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
